-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x3200000 : Shape := ⟨2, ![2, 3200000]⟩
abbrev S3200000 : Shape := ⟨1, ![3200000]⟩
abbrev S200x16 : Shape := ⟨2, ![200, 16]⟩
abbrev S100x16 : Shape := ⟨2, ![100, 16]⟩
abbrev S32x64 : Shape := ⟨2, ![32, 64]⟩
abbrev S64 : Shape := ⟨1, ![64]⟩
abbrev S64x16 : Shape := ⟨2, ![64, 16]⟩
abbrev S16 : Shape := ⟨1, ![16]⟩
abbrev S_ : Shape := ⟨0, ![]⟩
abbrev S100000x1 : Shape := ⟨2, ![100000, 1]⟩
abbrev S100000 : Shape := ⟨1, ![100000]⟩

class Facts : Prop where
  bcast_S_S3200000 : S_.BroadcastsInDim S3200000 (![] : Fin 0 → Fin S3200000.rank)
  reducesTo_S3200000_S_d0 : S3200000.ReducesTo [0] S_
  h_S_ : 0 < S_.numel
  bcast_S_S200x16 : S_.BroadcastsInDim S200x16 (![] : Fin 0 → Fin S200x16.rank)
  reducesTo_S200x16_S_d0_1 : S200x16.ReducesTo [0, 1] S_
  bcast_S_S100x16 : S_.BroadcastsInDim S100x16 (![] : Fin 0 → Fin S100x16.rank)
  reducesTo_S100x16_S_d0_1 : S100x16.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  slices_S100000x2_S100000x1_0_0 : S100000x2.Slices ![0, 0] S100000x1
  shapeCasts_S100000x1_S100000 : S100000x1.ShapeCasts S100000
  bcast_S_S100000 : S_.BroadcastsInDim S100000 (![] : Fin 0 → Fin S100000.rank)
  reducesTo_S100000_S_d0 : S100000.ReducesTo [0] S_
  slices_S100000x2_S100000x1_0_1 : S100000x2.Slices ![0, 1] S100000x1

variable [Facts]

def fn_part3 {F : FTy → Type} [FloatOps F] (main_v44 : IVec S_ 1) (main_v48 : IVec S100000 1) (main_v52 : IVec S100000 1) : IVec S_ 1 :=
  let main_v53 : IVec S100000 1 := andi main_v48 main_v52
  let main_c_17 : IVec S_ 1 := constantI S_ 1 1#1
  let main_v54 : IVec S_ 1 := (fun x v => Host.reduce IntOp.andi x v reducesTo_S100000_S_d0 h_S_) main_v53 main_c_17
  let main_v55 : IVec S_ 1 := andi main_v44 main_v54
  main_v55

def fn_part2 {F : FTy → Type} [FloatOps F] (main_arg0 : IVec S100000x2 32) (main_v33 : IVec S_ 1) : IVec S_ 1 :=
  let main_v34 : IVec S100000x1 32 := (extractStridedSlice S100000x1 ![0, 0] · slices_S100000x2_S100000x1_0_0) main_arg0
  let main_v35 : IVec S100000 32 := shapeCast S100000 main_v34 shapeCasts_S100000x1_S100000
  let main_c_12 : IVec S_ 32 := constantI S_ 32 0#32
  let main_v36 : IVec S100000 32 := broadcastInDim S100000 ![] bcast_S_S100000 main_c_12
  let main_v37 : IVec S100000 1 := cmpi .sge main_v35 main_v36
  let main_v38 : IVec S100000x1 32 := (extractStridedSlice S100000x1 ![0, 0] · slices_S100000x2_S100000x1_0_0) main_arg0
  let main_v39 : IVec S100000 32 := shapeCast S100000 main_v38 shapeCasts_S100000x1_S100000
  let main_c_13 : IVec S_ 32 := constantI S_ 32 200#32
  let main_v40 : IVec S100000 32 := broadcastInDim S100000 ![] bcast_S_S100000 main_c_13
  let main_v41 : IVec S100000 1 := cmpi .slt main_v39 main_v40
  let main_v42 : IVec S100000 1 := andi main_v37 main_v41
  let main_c_14 : IVec S_ 1 := constantI S_ 1 1#1
  let main_v43 : IVec S_ 1 := (fun x v => Host.reduce IntOp.andi x v reducesTo_S100000_S_d0 h_S_) main_v42 main_c_14
  let main_v44 : IVec S_ 1 := andi main_v33 main_v43
  let main_v45 : IVec S100000x1 32 := (extractStridedSlice S100000x1 ![0, 1] · slices_S100000x2_S100000x1_0_1) main_arg0
  let main_v46 : IVec S100000 32 := shapeCast S100000 main_v45 shapeCasts_S100000x1_S100000
  let main_c_15 : IVec S_ 32 := constantI S_ 32 0#32
  let main_v47 : IVec S100000 32 := broadcastInDim S100000 ![] bcast_S_S100000 main_c_15
  let main_v48 : IVec S100000 1 := cmpi .sge main_v46 main_v47
  let main_v49 : IVec S100000x1 32 := (extractStridedSlice S100000x1 ![0, 1] · slices_S100000x2_S100000x1_0_1) main_arg0
  let main_v50 : IVec S100000 32 := shapeCast S100000 main_v49 shapeCasts_S100000x1_S100000
  let main_c_16 : IVec S_ 32 := constantI S_ 32 100#32
  let main_v51 : IVec S100000 32 := broadcastInDim S100000 ![] bcast_S_S100000 main_c_16
  let main_v52 : IVec S100000 1 := cmpi .slt main_v50 main_v51
  fn_part3 (F := F) main_v44 main_v48 main_v52

def fn_part1 {F : FTy → Type} [FloatOps F] (main_arg0 : IVec S100000x2 32) (main_arg6 : FVec F S64 .f32) (main_arg7 : FVec F S64x16 .f32) (main_arg8 : FVec F S16 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg7
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg0 main_v33

def fn {F : FTy → Type} [FloatOps F] (main_arg0 : IVec S100000x2 32) (main_arg1 : IVec S2x3200000 32) (main_arg2 : FVec F S3200000 .f32) (main_arg3 : FVec F S200x16 .f32) (main_arg4 : FVec F S100x16 .f32) (main_arg5 : FVec F S32x64 .f32) (main_arg6 : FVec F S64 .f32) (main_arg7 : FVec F S64x16 .f32) (main_arg8 : FVec F S16 .f32) : IVec S_ 1 :=
  let main_v0 : FVec F S3200000 .f32 := Host.absf main_arg2
  let main_cst : FVec F S_ .f32 := constant S_ .f32 0x7F800000#32
  let main_v1 : FVec F S3200000 .f32 := broadcastInDim S3200000 ![] bcast_S_S3200000 main_cst
  let main_v2 : IVec S3200000 1 := cmpf .olt main_v0 main_v1
  let main_c : IVec S_ 1 := constantI S_ 1 1#1
  let main_v3 : IVec S_ 1 := (fun x v => Host.reduce IntOp.andi x v reducesTo_S3200000_S_d0 h_S_) main_v2 main_c
  let main_v4 : FVec F S200x16 .f32 := Host.absf main_arg3
  let main_cst_0 : FVec F S_ .f32 := constant S_ .f32 0x7F800000#32
  let main_v5 : FVec F S200x16 .f32 := broadcastInDim S200x16 ![] bcast_S_S200x16 main_cst_0
  let main_v6 : IVec S200x16 1 := cmpf .olt main_v4 main_v5
  let main_c_1 : IVec S_ 1 := constantI S_ 1 1#1
  let main_v7 : IVec S_ 1 := (fun x v => Host.reduce IntOp.andi x v reducesTo_S200x16_S_d0_1 h_S_) main_v6 main_c_1
  let main_v8 : IVec S_ 1 := andi main_v3 main_v7
  let main_v9 : FVec F S100x16 .f32 := Host.absf main_arg4
  let main_cst_2 : FVec F S_ .f32 := constant S_ .f32 0x7F800000#32
  let main_v10 : FVec F S100x16 .f32 := broadcastInDim S100x16 ![] bcast_S_S100x16 main_cst_2
  let main_v11 : IVec S100x16 1 := cmpf .olt main_v9 main_v10
  let main_c_3 : IVec S_ 1 := constantI S_ 1 1#1
  let main_v12 : IVec S_ 1 := (fun x v => Host.reduce IntOp.andi x v reducesTo_S100x16_S_d0_1 h_S_) main_v11 main_c_3
  let main_v13 : IVec S_ 1 := andi main_v8 main_v12
  let main_v14 : FVec F S32x64 .f32 := Host.absf main_arg5
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg0 main_arg6 main_arg7 main_arg8 main_v13 main_v16
-- ==== Kernel.lean ====
abbrev S100000x2 : Shape := ⟨2, ![100000, 2]⟩
abbrev S2x3200000 : Shape := ⟨2, ![2, 3200000]⟩
abbrev S3200000 : Shape := ⟨1, ![3200000]⟩
abbrev S200x16 : Shape := ⟨2, ![200, 16]⟩
abbrev S100x16 : Shape := ⟨2, ![100, 16]⟩
abbrev S32x64 : Shape := ⟨2, ![32, 64]⟩
abbrev S64 : Shape := ⟨1, ![64]⟩
abbrev S64x16 : Shape := ⟨2, ![64, 16]⟩
abbrev S16 : Shape := ⟨1, ![16]⟩
abbrev S1x3200000 : Shape := ⟨2, ![1, 3200000]⟩
abbrev S16x64 : Shape := ⟨2, ![16, 64]⟩
abbrev S100000x64 : Shape := ⟨2, ![100000, 64]⟩
abbrev S10000x2 : Shape := ⟨2, ![10000, 2]⟩
abbrev S10000x64 : Shape := ⟨2, ![10000, 64]⟩
abbrev S10000x200 : Shape := ⟨2, ![10000, 200]⟩
abbrev S10000x1 : Shape := ⟨2, ![10000, 1]⟩
abbrev S10000x100 : Shape := ⟨2, ![10000, 100]⟩
abbrev S10000x16 : Shape := ⟨2, ![10000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x16 : Shape := ⟨2, ![100000, 16]⟩
abbrev S3300000x16 : Shape := ⟨2, ![3300000, 16]⟩
abbrev S1x16 : Shape := ⟨2, ![1, 16]⟩

abbrev nBuf : Space → Nat
  | .hbm => 98
  | .vmem => 23
  | .smem => 0
  | _ => 0

abbrev bufTy : (tb : Table) → Fin (tcTables nBuf tb) → BufTy
  | .hbm, ⟨0, _⟩ => ⟨S100000x2, .i32⟩
  | .hbm, ⟨1, _⟩ => ⟨S2x3200000, .i32⟩
  | .hbm, ⟨2, _⟩ => ⟨S3200000, .f32⟩
  | .hbm, ⟨3, _⟩ => ⟨S200x16, .f32⟩
  | .hbm, ⟨4, _⟩ => ⟨S100x16, .f32⟩
  | .hbm, ⟨5, _⟩ => ⟨S32x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S16x64, .f32⟩
  | .hbm, ⟨14, _⟩ => ⟨S16x64, .f32⟩
  | .hbm, ⟨15, _⟩ => ⟨S100000x64, .f32⟩
  | .hbm, ⟨16, _⟩ => ⟨S100000, .i32⟩
  | .hbm, ⟨17, _⟩ => ⟨S3300000, .i32⟩
  | .hbm, ⟨18, _⟩ => ⟨S3300000, .i32⟩
  | .hbm, ⟨19, _⟩ => ⟨S_, .f32⟩
  | .hbm, ⟨20, _⟩ => ⟨S100000, .f32⟩
  | .hbm, ⟨21, _⟩ => ⟨S3300000, .f32⟩
  | .hbm, ⟨22, _⟩ => ⟨S_, .f32⟩
  | .hbm, ⟨23, _⟩ => ⟨S100000, .f32⟩
  | .hbm, ⟨24, _⟩ => ⟨S3300000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000, .f32⟩
  | .hbm, ⟨50, _⟩ => ⟨S3300000, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000, .f32⟩
  | .hbm, ⟨60, _⟩ => ⟨S3300000, .f32⟩
  | .hbm, ⟨61, _⟩ => ⟨S_, .i32⟩
  | .hbm, ⟨62, _⟩ => ⟨S3300000, .i32⟩
  | .hbm, ⟨63, _⟩ => ⟨S3300000, .i1⟩
  | .hbm, ⟨64, _⟩ => ⟨S_, .i32⟩
  | .hbm, ⟨65, _⟩ => ⟨S3300000, .i32⟩
  | .hbm, ⟨66, _⟩ => ⟨S3300000, .i32⟩
  | .hbm, ⟨67, _⟩ => ⟨S3300000, .i32⟩
  | .hbm, ⟨68, _⟩ => ⟨S3300000x1, .i32⟩
  | .hbm, ⟨69, _⟩ => ⟨S3300000x64, .f32⟩
  | .hbm, ⟨70, _⟩ => ⟨S3300000x1, .f32⟩
  | .hbm, ⟨71, _⟩ => ⟨S3300000x64, .f32⟩
  | .hbm, ⟨72, _⟩ => ⟨S3300000x64, .f32⟩
  | .hbm, ⟨73, _⟩ => ⟨S_, .f32⟩
  | .hbm, ⟨74, _⟩ => ⟨S100000x64, .f32⟩
  | .hbm, ⟨75, _⟩ => ⟨S3300000x1, .i32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x16, .f32⟩
  | .hbm, ⟨80, _⟩ => ⟨S_, .i32⟩
  | .hbm, ⟨81, _⟩ => ⟨S3300000, .i32⟩
  | .hbm, ⟨82, _⟩ => ⟨S3300000, .i1⟩
  | .hbm, ⟨83, _⟩ => ⟨S_, .i32⟩
  | .hbm, ⟨84, _⟩ => ⟨S3300000, .i32⟩
  | .hbm, ⟨85, _⟩ => ⟨S3300000, .i32⟩
  | .hbm, ⟨86, _⟩ => ⟨S3300000, .i32⟩
  | .hbm, ⟨87, _⟩ => ⟨S3300000x1, .i32⟩
  | .hbm, ⟨88, _⟩ => ⟨S3300000x16, .f32⟩
  | .hbm, ⟨89, _⟩ => ⟨S3300000x1, .f32⟩
  | .hbm, ⟨90, _⟩ => ⟨S3300000x16, .f32⟩
  | .hbm, ⟨91, _⟩ => ⟨S3300000x16, .f32⟩
  | .hbm, ⟨92, _⟩ => ⟨S_, .f32⟩
  | .hbm, ⟨93, _⟩ => ⟨S100000x16, .f32⟩
  | .hbm, ⟨94, _⟩ => ⟨S3300000x1, .i32⟩
  | .hbm, ⟨95, _⟩ => ⟨S100000x16, .f32⟩
  | .hbm, ⟨96, _⟩ => ⟨S1x16, .f32⟩
  | .hbm, ⟨97, _⟩ => ⟨S100000x16, .f32⟩
  | .local _ .vmem, ⟨0, _⟩ => ⟨S10000x2, .i32⟩
  | .local _ .vmem, ⟨1, _⟩ => ⟨S10000x2, .i32⟩
  | .local _ .vmem, ⟨2, _⟩ => ⟨S200x16, .f32⟩
  | .local _ .vmem, ⟨3, _⟩ => ⟨S100x16, .f32⟩
  | .local _ .vmem, ⟨4, _⟩ => ⟨S16x64, .f32⟩
  | .local _ .vmem, ⟨5, _⟩ => ⟨S16x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S1x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S64x16, .f32⟩
  | .local _ .vmem, ⟨16, _⟩ => ⟨S10000x16, .f32⟩
  | .local _ .vmem, ⟨17, _⟩ => ⟨S10000x16, .f32⟩
  | .local _ .vmem, ⟨18, _⟩ => ⟨S10000x16, .f32⟩
  | .local _ .vmem, ⟨19, _⟩ => ⟨S10000x16, .f32⟩
  | .local _ .vmem, ⟨20, _⟩ => ⟨S1x16, .f32⟩
  | .local _ .vmem, ⟨21, _⟩ => ⟨S10000x16, .f32⟩
  | .local _ .vmem, ⟨22, _⟩ => ⟨S10000x16, .f32⟩
  | _, _ => ⟨S100000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v21 : Ref sig .tc := ⟨.hbm, 40, rfl⟩
abbrev main_c : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_11 : Ref sig .tc := ⟨.hbm, 80, rfl⟩
abbrev main_v54 : Ref sig .tc := ⟨.hbm, 81, rfl⟩
abbrev main_v55 : Ref sig .tc := ⟨.hbm, 82, rfl⟩
abbrev main_c_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S100x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  slices_S32x64_S16x64_0_0 : S32x64.Slices ![0, 0] S16x64
  slices_S32x64_S16x64_16_0 : S32x64.Slices ![16, 0] S16x64
  inb_S10000x2_S10000x2_0_0 : ∀ a, (![0, 0] : Fin 2 → Nat) a + S10000x2.size a ≤ S10000x2.size a
  h_S10000x2 : 0 < S10000x2.numel
  iota_S10000x200_d1_w32 : S10000x200.Iotas .tc 32 [1]
  slices_S10000x2_o0_0_S10000x1 : S10000x2.Slices ![0, 0] S10000x1
  broadcasts_S10000x1_S10000x200 : S10000x1.Broadcasts S10000x200
  natLt_1_32 : 1 < 32
  bitsLt_bf16_f32 : FTy.bits .bf16 < FTy.bits .f32
  iota_S10000x100_d1_w32 : S10000x100.Iotas .tc 32 [1]
  slices_S10000x2_o0_1_S10000x1 : S10000x2.Slices ![0, 1] S10000x1
  broadcasts_S10000x1_S10000x100 : S10000x1.Broadcasts S10000x100
  inb_S200x16_S200x16_0_0 : ∀ a, (![0, 0] : Fin 2 → Nat) a + S200x16.size a ≤ S200x16.size a
  h_S200x16 : 0 < S200x16.numel
  inb_S100x16_S100x16_0_0 : ∀ a, (![0, 0] : Fin 2 → Nat) a + S100x16.size a ≤ S100x16.size a
  h_S100x16 : 0 < S100x16.numel
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S10000x64_S10000x64_0_0 : ∀ a, (![0, 0] : Fin 2 → Nat) a + S10000x64.size a ≤ S10000x64.size a
  h_S10000x64 : 0 < S10000x64.numel
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  dot_S10000x200_S200x16_S10000x16_1_0_0_1_n_n_wf : DotDims.WF S10000x200 S200x16 S10000x16 [1] [0] [0] [1] [] []
  dot_S10000x100_S100x16_S10000x16_1_0_0_1_n_n_wf : DotDims.WF S10000x100 S100x16 S10000x16 [1] [0] [0] [1] [] []
  dot_S10000x16_S16x64_S10000x64_1_0_0_1_n_n_wf : DotDims.WF S10000x16 S16x64 S10000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x16_S10000x16_1_0_0_1_n_n_wf : DotDims.WF S10000x64 S64x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S100000x2.size a
  hwx0_0 : ∀ i : grid0.Coords, EltTy.bits .i32 = 32 ∨ (Rect.block (s := S100000x2) S10000x2.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x16.size a ≤ S200x16.size a
  hwx0_1 : ∀ i : grid0.Coords, EltTy.bits .f32 = 32 ∨ (Rect.block (s := S200x16) S200x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x16.size a ≤ S100x16.size a
  hwx0_2 : ∀ i : grid0.Coords, EltTy.bits .f32 = 32 ∨ (Rect.block (s := S100x16) S100x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x64.size a ≤ S16x64.size a
  hwx0_4 : ∀ i : grid0.Coords, EltTy.bits .f32 = 32 ∨ (Rect.block (s := S16x64) S16x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x16.size a ≤ S100000x16.size a
  hwx3_2 : ∀ i : grid3.Coords, EltTy.bits .f32 = 32 ∨ (Rect.block (s := S100000x16) S10000x16.size (cc3_transform_2 i) (hinb3_2 i)).WholeWords (EltTy.packing .f32)

variable [Facts₀]

def dot_S10000x200_S200x16_S10000x16_1_0_0_1_n_n : DotDims S10000x200 S200x16 S10000x16 where
  lhsContracting := [1]
  rhsContracting := [0]
  lhsNonContracting := [0]
  rhsNonContracting := [1]
  lhsBatch := []
  rhsBatch := []
  wf := dot_S10000x200_S200x16_S10000x16_1_0_0_1_n_n_wf
def dot_S10000x100_S100x16_S10000x16_1_0_0_1_n_n : DotDims S10000x100 S100x16 S10000x16 where
  lhsContracting := [1]
  rhsContracting := [0]
  lhsNonContracting := [0]
  rhsNonContracting := [1]
  lhsBatch := []
  rhsBatch := []
  wf := dot_S10000x100_S100x16_S10000x16_1_0_0_1_n_n_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_arg0) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S200x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S100x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S16x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v50) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v66) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S10000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x2 : Shape := ⟨2, ![100000, 2]⟩
abbrev S2x3200000 : Shape := ⟨2, ![2, 3200000]⟩
abbrev S3200000 : Shape := ⟨1, ![3200000]⟩
abbrev S200x16 : Shape := ⟨2, ![200, 16]⟩
abbrev S100x16 : Shape := ⟨2, ![100, 16]⟩
abbrev S32x64 : Shape := ⟨2, ![32, 64]⟩
abbrev S64 : Shape := ⟨1, ![64]⟩
abbrev S64x16 : Shape := ⟨2, ![64, 16]⟩
abbrev S16 : Shape := ⟨1, ![16]⟩
abbrev S100000x1 : Shape := ⟨2, ![100000, 1]⟩
abbrev S100000 : Shape := ⟨1, ![100000]⟩
abbrev S_ : Shape := ⟨0, ![]⟩
abbrev S100000x16 : Shape := ⟨2, ![100000, 16]⟩
abbrev S100000x32 : Shape := ⟨2, ![100000, 32]⟩
abbrev S1x3200000 : Shape := ⟨2, ![1, 3200000]⟩
abbrev S100000x64 : Shape := ⟨2, ![100000, 64]⟩
abbrev S3300000 : Shape := ⟨1, ![3300000]⟩
abbrev S3300000x1 : Shape := ⟨2, ![3300000, 1]⟩
abbrev S3300000x64 : Shape := ⟨2, ![3300000, 64]⟩
abbrev S1x64 : Shape := ⟨2, ![1, 64]⟩
abbrev S3300000x16 : Shape := ⟨2, ![3300000, 16]⟩
abbrev S1x16 : Shape := ⟨2, ![1, 16]⟩

abbrev nBuf : Space → Nat
  | .hbm => 169
  | .vmem => 0
  | .smem => 0
  | _ => 0

abbrev hbmTy0_0 (i : Nat) : BufTy := match i % 128 with
  | 0 => ⟨S100000x2, .i32⟩
  | 1 => ⟨S2x3200000, .i32⟩
  | 2 => ⟨S3200000, .f32⟩
  | 3 => ⟨S200x16, .f32⟩
  | 4 => ⟨S100x16, .f32⟩
  | 5 => ⟨S32x64, .f32⟩
  | 6 => ⟨S64, .f32⟩
  | 7 => ⟨S64x16, .f32⟩
  | 8 => ⟨S16, .f32⟩
  | 9 => ⟨S100000x1, .i32⟩
  | 10 => ⟨S100000, .i32⟩
  | 11 => ⟨S_, .i32⟩
  | 12 => ⟨S100000, .i32⟩
  | 13 => ⟨S100000, .i1⟩
  | 14 => ⟨S_, .i32⟩
  | 15 => ⟨S100000, .i32⟩
  | 16 => ⟨S100000, .i32⟩
  | 17 => ⟨S100000, .i32⟩
  | 18 => ⟨S100000x1, .i32⟩
  | 19 => ⟨S100000x16, .f32⟩
  | 20 => ⟨S100000x1, .i32⟩
  | 21 => ⟨S100000, .i32⟩
  | 22 => ⟨S_, .i32⟩
  | 23 => ⟨S100000, .i32⟩
  | 24 => ⟨S100000, .i1⟩
  | 25 => ⟨S_, .i32⟩
  | 26 => ⟨S100000, .i32⟩
  | 27 => ⟨S100000, .i32⟩
  | 28 => ⟨S100000, .i32⟩
  | 29 => ⟨S100000x1, .i32⟩
  | 30 => ⟨S100000x16, .f32⟩
  | 31 => ⟨S100000x32, .f32⟩
  | 32 => ⟨S1x3200000, .i32⟩
  | 33 => ⟨S3200000, .i32⟩
  | 34 => ⟨S1x3200000, .i32⟩
  | 35 => ⟨S3200000, .i32⟩
  | 36 => ⟨S100000x64, .f32⟩
  | 37 => ⟨S100000, .i32⟩
  | 38 => ⟨S3300000, .i32⟩
  | 39 => ⟨S3300000, .i32⟩
  | 40 => ⟨S_, .f32⟩
  | 41 => ⟨S100000, .f32⟩
  | 42 => ⟨S3300000, .f32⟩
  | 43 => ⟨S_, .f32⟩
  | 44 => ⟨S100000, .f32⟩
  | 45 => ⟨S3300000x1, .i32⟩
  | 46 => ⟨S100000, .f32⟩
  | 47 => ⟨S_, .f32⟩
  | 48 => ⟨S100000, .f32⟩
  | 49 => ⟨S100000, .i1⟩
  | 50 => ⟨S_, .f32⟩
  | 51 => ⟨S100000, .f32⟩
  | 52 => ⟨S100000, .i1⟩
  | 53 => ⟨S_, .f32⟩
  | 54 => ⟨S_, .f32⟩
  | 55 => ⟨S100000, .f32⟩
  | 56 => ⟨S100000, .f32⟩
  | 57 => ⟨S100000, .f32⟩
  | 58 => ⟨S_, .f32⟩
  | 59 => ⟨S_, .f32⟩
  | 60 => ⟨S100000, .f32⟩
  | 61 => ⟨S100000, .f32⟩
  | 62 => ⟨S_, .i32⟩
  | 63 => ⟨S3300000, .i32⟩
  | 64 => ⟨S3300000, .i1⟩
  | 65 => ⟨S_, .i32⟩
  | 66 => ⟨S3300000, .i32⟩
  | 67 => ⟨S3300000, .i32⟩
  | 68 => ⟨S3300000, .i32⟩
  | 69 => ⟨S3300000x1, .i32⟩
  | 70 => ⟨S3300000, .f32⟩
  | 71 => ⟨S3300000, .f32⟩
  | 72 => ⟨S_, .i32⟩
  | 73 => ⟨S3300000, .i32⟩
  | 74 => ⟨S3300000, .i1⟩
  | 75 => ⟨S_, .i32⟩
  | 76 => ⟨S3300000, .i32⟩
  | 77 => ⟨S3300000, .i32⟩
  | 78 => ⟨S3300000, .i32⟩
  | 79 => ⟨S3300000x1, .i32⟩
  | 80 => ⟨S3300000, .f32⟩
  | 81 => ⟨S3300000, .f32⟩
  | 82 => ⟨S_, .i32⟩
  | 83 => ⟨S3300000, .i32⟩
  | 84 => ⟨S3300000, .i1⟩
  | 85 => ⟨S_, .i32⟩
  | 86 => ⟨S3300000, .i32⟩
  | 87 => ⟨S3300000, .i32⟩
  | 88 => ⟨S3300000, .i32⟩
  | 89 => ⟨S3300000x1, .i32⟩
  | 90 => ⟨S3300000x64, .f32⟩
  | 91 => ⟨S3300000x1, .f32⟩
  | 92 => ⟨S3300000x64, .f32⟩
  | 93 => ⟨S3300000x64, .f32⟩
  | 94 => ⟨S_, .f32⟩
  | 95 => ⟨S100000x64, .f32⟩
  | 96 => ⟨S3300000x1, .i32⟩
  | 97 => ⟨S100000x64, .f32⟩
  | 98 => ⟨S1x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S100000x16, .f32⟩
  | 105 => ⟨S100000, .i32⟩
  | 106 => ⟨S3300000, .i32⟩
  | 107 => ⟨S3300000, .i32⟩
  | 108 => ⟨S_, .f32⟩
  | 109 => ⟨S100000, .f32⟩
  | 110 => ⟨S3300000, .f32⟩
  | 111 => ⟨S_, .f32⟩
  | 112 => ⟨S100000, .f32⟩
  | 113 => ⟨S3300000x1, .i32⟩
  | 114 => ⟨S100000, .f32⟩
  | 115 => ⟨S_, .f32⟩
  | 116 => ⟨S100000, .f32⟩
  | 117 => ⟨S100000, .i1⟩
  | 118 => ⟨S_, .f32⟩
  | 119 => ⟨S100000, .f32⟩
  | 120 => ⟨S100000, .i1⟩
  | 121 => ⟨S_, .f32⟩
  | 122 => ⟨S_, .f32⟩
  | 123 => ⟨S100000, .f32⟩
  | 124 => ⟨S100000, .f32⟩
  | 125 => ⟨S100000, .f32⟩
  | 126 => ⟨S_, .f32⟩
  | 127 => ⟨S_, .f32⟩
  | _ => ⟨S100000x2, .i32⟩

abbrev hbmTy0_1 (i : Nat) : BufTy := match i % 128 with
  | 0 => ⟨S100000, .f32⟩
  | 1 => ⟨S100000, .f32⟩
  | 2 => ⟨S_, .i32⟩
  | 3 => ⟨S3300000, .i32⟩
  | 4 => ⟨S3300000, .i1⟩
  | 5 => ⟨S_, .i32⟩
  | 6 => ⟨S3300000, .i32⟩
  | 7 => ⟨S3300000, .i32⟩
  | 8 => ⟨S3300000, .i32⟩
  | 9 => ⟨S3300000x1, .i32⟩
  | 10 => ⟨S3300000, .f32⟩
  | 11 => ⟨S3300000, .f32⟩
  | 12 => ⟨S_, .i32⟩
  | 13 => ⟨S3300000, .i32⟩
  | 14 => ⟨S3300000, .i1⟩
  | 15 => ⟨S_, .i32⟩
  | 16 => ⟨S3300000, .i32⟩
  | 17 => ⟨S3300000, .i32⟩
  | 18 => ⟨S3300000, .i32⟩
  | 19 => ⟨S3300000x1, .i32⟩
  | 20 => ⟨S3300000, .f32⟩
  | 21 => ⟨S3300000, .f32⟩
  | 22 => ⟨S_, .i32⟩
  | 23 => ⟨S3300000, .i32⟩
  | 24 => ⟨S3300000, .i1⟩
  | 25 => ⟨S_, .i32⟩
  | 26 => ⟨S3300000, .i32⟩
  | 27 => ⟨S3300000, .i32⟩
  | 28 => ⟨S3300000, .i32⟩
  | 29 => ⟨S3300000x1, .i32⟩
  | 30 => ⟨S3300000x16, .f32⟩
  | 31 => ⟨S3300000x1, .f32⟩
  | 32 => ⟨S3300000x16, .f32⟩
  | 33 => ⟨S3300000x16, .f32⟩
  | 34 => ⟨S_, .f32⟩
  | 35 => ⟨S100000x16, .f32⟩
  | 36 => ⟨S3300000x1, .i32⟩
  | 37 => ⟨S100000x16, .f32⟩
  | 38 => ⟨S1x16, .f32⟩
  | 39 => ⟨S100000x16, .f32⟩
  | 40 => ⟨S100000x16, .f32⟩
  | _ => ⟨S100000x2, .i32⟩

abbrev hbmTy (i : Nat) : BufTy := match i / 128 with
  | 0 => hbmTy0_0 i
  | 1 => hbmTy0_1 i
  | _ => ⟨S100000x2, .i32⟩

abbrev bufTy : (tb : Table) → Fin (tcTables nBuf tb) → BufTy
  | .hbm, ⟨i, _⟩ => hbmTy i
  | _, _ => ⟨S100000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_call0_v0 : Ref sig .tc := ⟨.hbm, 54, rfl⟩
abbrev main_call0_v1 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call1_v0 : Ref sig .tc := ⟨.hbm, 59, rfl⟩
abbrev main_call1_v1 : Ref sig .tc := ⟨.hbm, 60, rfl⟩
abbrev main_v38 : Ref sig .tc := ⟨.hbm, 61, rfl⟩
abbrev main_c_8 : Ref sig .tc := ⟨.hbm, 62, rfl⟩
abbrev main_v39 : Ref sig .tc := ⟨.hbm, 63, rfl⟩
abbrev main_v40 : Ref sig .tc := ⟨.hbm, 64, rfl⟩
abbrev main_c_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_10 : Ref sig .tc := ⟨.hbm, 72, rfl⟩
abbrev main_v47 : Ref sig .tc := ⟨.hbm, 73, rfl⟩
abbrev main_v48 : Ref sig .tc := ⟨.hbm, 74, rfl⟩
abbrev main_c_11 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_12 : Ref sig .tc := ⟨.hbm, 82, rfl⟩
abbrev main_v55 : Ref sig .tc := ⟨.hbm, 83, rfl⟩
abbrev main_v56 : Ref sig .tc := ⟨.hbm, 84, rfl⟩
abbrev main_c_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_call2_cst : Ref sig .tc := ⟨.hbm, 101, rfl⟩
abbrev main_call2_v0 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_15 : Ref sig .tc := ⟨.hbm, 108, rfl⟩
abbrev main_v76 : Ref sig .tc := ⟨.hbm, 109, rfl⟩
abbrev main_v77 : Ref sig .tc := ⟨.hbm, 110, rfl⟩
abbrev main_cst_16 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_17 : Ref sig .tc := ⟨.hbm, 115, rfl⟩
abbrev main_v81 : Ref sig .tc := ⟨.hbm, 116, rfl⟩
abbrev main_v82 : Ref sig .tc := ⟨.hbm, 117, rfl⟩
abbrev main_cst_18 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_call3_v0 : Ref sig .tc := ⟨.hbm, 122, rfl⟩
abbrev main_call3_v1 : Ref sig .tc := ⟨.hbm, 123, rfl⟩
abbrev main_v85 : Ref sig .tc := ⟨.hbm, 124, rfl⟩
abbrev main_v86 : Ref sig .tc := ⟨.hbm, 125, rfl⟩
abbrev main_cst_20 : Ref sig .tc := ⟨.hbm, 126, rfl⟩
abbrev main_call4_v0 : Ref sig .tc := ⟨.hbm, 127, rfl⟩
abbrev main_call4_v1 : Ref sig .tc := ⟨.hbm, 128, rfl⟩
abbrev main_v87 : Ref sig .tc := ⟨.hbm, 129, rfl⟩
abbrev main_c_21 : Ref sig .tc := ⟨.hbm, 130, rfl⟩
abbrev main_v88 : Ref sig .tc := ⟨.hbm, 131, rfl⟩
abbrev main_v89 : Ref sig .tc := ⟨.hbm, 132, rfl⟩
abbrev main_c_22 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_c_23 : Ref sig .tc := ⟨.hbm, 140, rfl⟩
abbrev main_v96 : Ref sig .tc := ⟨.hbm, 141, rfl⟩
abbrev main_v97 : Ref sig .tc := ⟨.hbm, 142, rfl⟩
abbrev main_c_24 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_c_25 : Ref sig .tc := ⟨.hbm, 150, rfl⟩
abbrev main_v104 : Ref sig .tc := ⟨.hbm, 151, rfl⟩
abbrev main_v105 : Ref sig .tc := ⟨.hbm, 152, rfl⟩
abbrev main_c_26 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_27 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩

abbrev nD : Nat := 1
abbrev τ : Topo := Topo.v7x

variable {F : FTy → Type} [FloatOps F]

class Facts₀ : Prop where
  slices_S100000x2_S100000x1_0_0 : S100000x2.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S100000x2_S100000x1_0_1 : S100000x2.Slices ![0, 1] S100000x1
  concatenates_S100000x16_S100000x16_S100000x32_d1 : Shape.Concatenates [S100000x16, S100000x16] S100000x32 1
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S200x16_S100000x1_S100000x16_1_0_n_n_0_1_116_wf : GatherDims.WF S200x16 S100000x1 S100000x16 [1] [0] [] [0] [] 1 ![1, 16]
  gather_S100x16_S100000x1_S100000x16_1_0_n_n_0_1_116_wf : GatherDims.WF S100x16 S100000x1 S100000x16 [1] [0] [] [0] [] 1 ![1, 16]
  dot_S100000x32_S32x64_S100000x64_1_0_0_1_n_n_wf : DotDims.WF S100000x32 S32x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x16_S100000x16_1_0_0_1_n_n_wf : DotDims.WF S100000x64 S64x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def gather_S200x16_S100000x1_S100000x16_1_0_n_n_0_1_116 : GatherDims S200x16 S100000x1 S100000x16 where
  offsetDims := [1]
  collapsedSliceDims := [0]
  operandBatchingDims := []
  startIndicesBatchingDims := []
  startIndexMap := [0]
  indexVectorDim := 1
  sliceSizes := ![1, 16]
  wf := gather_S200x16_S100000x1_S100000x16_1_0_n_n_0_1_116_wf
def gather_S100x16_S100000x1_S100000x16_1_0_n_n_0_1_116 : GatherDims S100x16 S100000x1 S100000x16 where
  offsetDims := [1]
  collapsedSliceDims := [0]
  operandBatchingDims := []
  startIndicesBatchingDims := []
  startIndexMap := [0]
  indexVectorDim := 1
  sliceSizes := ![1, 16]
  wf := gather_S100x16_S100000x1_S100000x16_1_0_n_n_0_1_116_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.RefSpec.lean ====
/-
  The reference's computation cut into named stages, each a whole-array function of its operands: the embedding lookup with
  the first projection, the edge lists and weights with their self loops, the degree normalisation, one round of message
  passing at 64 and at 16 features, the bias with the positive part, the second projection and the last bias. Their
  composition is the reference's result as a function of the nine arguments.
-/
import proofs.«415075_j67637144977437_2_alg».proof.Proof.Gen.ReferenceIdeal

noncomputable section

namespace Cert.RefSpec

open Idealize.ShloMosaic Cert.ReferenceIdeal Cert.ReferenceIdeal.Gen

variable {F : FTy → Type} [FloatOps F]

/-- The source end of every edge followed by the node numbers themselves (one self loop per node). -/
def srcAll (ei : Vec F S2x3200000 .i32) : Vec F S3300000 .i32 :=
  (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0)

/-- The destination end of every edge followed by the node numbers themselves. -/
def dstAll (ei : Vec F S2x3200000 .i32) : Vec F S3300000 .i32 :=
  (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)

/-- The edge weights followed by a weight of one for every self loop. -/
def ewAll (ea : Vec F S3200000 .f32) : Vec F S3300000 .f32 :=
  (concatenate S3300000 0 [⟨S3200000, ea⟩, ⟨S100000, (broadcastInDim S100000 ![] bcast_S_S100000 (constant S_ .f32 0x3F800000#32))⟩] concatenates_S3200000_S100000_S3300000_d0)

/-- The weighted in-degree of every node: the weights summed into their destination nodes. -/
def deg (ei : Vec F S2x3200000 .i32) (ea : Vec F S3200000 .f32) : Vec F S100000 .f32 :=
  (Host.scatterAdd scatter_S100000_S3300000x1_S3300000_n_0_0_1 (broadcastInDim S100000 ![] bcast_S_S100000 (constant S_ .f32 0x00000000#32)) (broadcastInDim S3300000x1 ![0] bcast_S3300000_S3300000x1_0 (dstAll ei)) (ewAll ea))

/-- The inverse square root of a positive degree, and zero where the degree is not positive. -/
def dinv (ei : Vec F S2x3200000 .i32) (ea : Vec F S3200000 .f32) : Vec F S100000 .f32 :=
  (select (cmpf .ogt (deg ei ea) (broadcastInDim S100000 ![] bcast_S_S100000 (constant S_ .f32 0x00000000#32))) (Host.rsqrt (select (cmpf .ogt (deg ei ea) (broadcastInDim S100000 ![] bcast_S_S100000 (constant S_ .f32 0x00000000#32))) (deg ei ea) (broadcastInDim S100000 ![] bcast_S_S100000 (id (constant S_ .f32 0x3F800000#32))))) (broadcastInDim S100000 ![] bcast_S_S100000 (id (constant S_ .f32 0x00000000#32))))

/-- A vector of node numbers as a column of start indices, a negative number first wrapped by the node count. -/
def nodeCol (x : Vec F S3300000 .i32) : Vec F S3300000x1 .i32 :=
  (broadcastInDim S3300000x1 ![0] bcast_S3300000_S3300000x1_0 (select (cmpi .slt x (broadcastInDim S3300000 ![] bcast_S_S3300000 (constantI S_ 32 0#32))) (addi x (broadcastInDim S3300000 ![] bcast_S_S3300000 (constantI S_ 32 100000#32))) x))

/-- The symmetric normalisation of every edge: dinv at its source, times its weight, times dinv at its destination. -/
def norm (ei : Vec F S2x3200000 .i32) (ea : Vec F S3200000 .f32) : Vec F S3300000 .f32 :=
  (mulf (mulf (Host.gather gather_S100000_S3300000x1_S3300000_n_0_n_n_0_1_1 (dinv ei ea) (broadcastInDim S3300000x1 ![0] bcast_S3300000_S3300000x1_0 (select (cmpi .slt (srcAll ei) (broadcastInDim S3300000 ![] bcast_S_S3300000 (constantI S_ 32 0#32))) (addi (srcAll ei) (broadcastInDim S3300000 ![] bcast_S_S3300000 (constantI S_ 32 100000#32))) (srcAll ei)))) (ewAll ea)) (Host.gather gather_S100000_S3300000x1_S3300000_n_0_n_n_0_1_1 (dinv ei ea) (broadcastInDim S3300000x1 ![0] bcast_S3300000_S3300000x1_0 (select (cmpi .slt (dstAll ei) (broadcastInDim S3300000 ![] bcast_S_S3300000 (constantI S_ 32 0#32))) (addi (dstAll ei) (broadcastInDim S3300000 ![] bcast_S_S3300000 (constantI S_ 32 100000#32))) (dstAll ei)))))

/-- One round of message passing over 64 features: each edge carries its source node's row scaled by the edge's
    normalisation, and the rows are summed into the destination nodes. -/
def agg64 (x : Vec F S100000x64 .f32) (ei : Vec F S2x3200000 .i32) (ea : Vec F S3200000 .f32) : Vec F S100000x64 .f32 :=
  (Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 (dstAll ei)) (mulf (Host.gather gather_S100000x64_S3300000x1_S3300000x64_1_0_n_n_0_1_164 x (broadcastInDim S3300000x1 ![0] bcast_S3300000_S3300000x1_0 (select (cmpi .slt (srcAll ei) (broadcastInDim S3300000 ![] bcast_S_S3300000 (constantI S_ 32 0#32))) (addi (srcAll ei) (broadcastInDim S3300000 ![] bcast_S_S3300000 (constantI S_ 32 100000#32))) (srcAll ei)))) (broadcastInDim S3300000x64 ![0, 1] bcast_S3300000x1_S3300000x64_0_1 (broadcastInDim S3300000x1 ![0] bcast_S3300000_S3300000x1_0 (norm ei ea)))))

/-- The same round over 16 features. -/
def agg16 (x : Vec F S100000x16 .f32) (ei : Vec F S2x3200000 .i32) (ea : Vec F S3200000 .f32) : Vec F S100000x16 .f32 :=
  (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 (dstAll ei)) (mulf (Host.gather gather_S100000x16_S3300000x1_S3300000x16_1_0_n_n_0_1_116 x (broadcastInDim S3300000x1 ![0] bcast_S3300000_S3300000x1_0 (select (cmpi .slt (srcAll ei) (broadcastInDim S3300000 ![] bcast_S_S3300000 (constantI S_ 32 0#32))) (addi (srcAll ei) (broadcastInDim S3300000 ![] bcast_S_S3300000 (constantI S_ 32 100000#32))) (srcAll ei)))) (broadcastInDim S3300000x16 ![0, 1] bcast_S3300000x1_S3300000x16_0_1 (broadcastInDim S3300000x1 ![0] bcast_S3300000_S3300000x1_0 (norm ei ea)))))

/-- The node features (the two class embeddings side by side, each row taken from its table at the node's class number,
    a negative number first wrapped by the table's length) projected by the first weight matrix. -/
def embedProj (xi : Vec F S100000x2 .i32) (ct : Vec F S200x16 .f32) (st : Vec F S100x16 .f32) (w1 : Vec F S32x64 .f32) : Vec F S100000x64 .f32 :=
  (Host.dotGeneral dot_S100000x32_S32x64_S100000x64_1_0_0_1_n_n none (concatenate S100000x32 1 [⟨S100000x16, (Host.gather gather_S200x16_S100000x1_S100000x16_1_0_n_n_0_1_116 ct (broadcastInDim S100000x1 ![0] bcast_S100000_S100000x1_0 (select (cmpi .slt (shapeCast _ (extractStridedSlice S100000x1 ![0, 0] xi slices_S100000x2_S100000x1_0_0) shapeCasts_S100000x1_S100000) (broadcastInDim S100000 ![] bcast_S_S100000 (constantI S_ 32 0#32))) (addi (shapeCast _ (extractStridedSlice S100000x1 ![0, 0] xi slices_S100000x2_S100000x1_0_0) shapeCasts_S100000x1_S100000) (broadcastInDim S100000 ![] bcast_S_S100000 (constantI S_ 32 200#32))) (shapeCast _ (extractStridedSlice S100000x1 ![0, 0] xi slices_S100000x2_S100000x1_0_0) shapeCasts_S100000x1_S100000))))⟩, ⟨S100000x16, (Host.gather gather_S100x16_S100000x1_S100000x16_1_0_n_n_0_1_116 st (broadcastInDim S100000x1 ![0] bcast_S100000_S100000x1_0 (select (cmpi .slt (shapeCast _ (extractStridedSlice S100000x1 ![0, 1] xi slices_S100000x2_S100000x1_0_1) shapeCasts_S100000x1_S100000) (broadcastInDim S100000 ![] bcast_S_S100000 (constantI S_ 32 0#32))) (addi (shapeCast _ (extractStridedSlice S100000x1 ![0, 1] xi slices_S100000x2_S100000x1_0_1) shapeCasts_S100000x1_S100000) (broadcastInDim S100000 ![] bcast_S_S100000 (constantI S_ 32 100#32))) (shapeCast _ (extractStridedSlice S100000x1 ![0, 1] xi slices_S100000x2_S100000x1_0_1) shapeCasts_S100000x1_S100000))))⟩] concatenates_S100000x16_S100000x16_S100000x32_d1) w1)

/-- The first layer's bias added to every row, then the positive part. -/
def biasRelu (a : Vec F S100000x64 .f32) (b1 : Vec F S64 .f32) : Vec F S100000x64 .f32 :=
  (maximumf (addf a (broadcastInDim S100000x64 ![0, 1] bcast_S1x64_S100000x64_0_1 (broadcastInDim S1x64 ![1] bcast_S64_S1x64_1 b1))) (broadcastInDim S100000x64 ![] bcast_S_S100000x64 (constant S_ .f32 0x00000000#32)))

/-- The projection by the second weight matrix. -/
def proj2 (x : Vec F S100000x64 .f32) (w2 : Vec F S64x16 .f32) : Vec F S100000x16 .f32 :=
  (Host.dotGeneral dot_S100000x64_S64x16_S100000x16_1_0_0_1_n_n none x w2)

/-- The second layer's bias added to every row. -/
def biasAdd (a : Vec F S100000x16 .f32) (b2 : Vec F S16 .f32) : Vec F S100000x16 .f32 :=
  addf a (broadcastInDim S100000x16 ![0, 1] bcast_S1x16_S100000x16_0_1 (broadcastInDim S1x16 ![1] bcast_S16_S1x16_1 b2))

/-- The whole network: two rounds of normalised message passing around a bias-and-positive-part layer. -/
def total (xi : Vec F S100000x2 .i32) (ei : Vec F S2x3200000 .i32) (ea : Vec F S3200000 .f32) (ct : Vec F S200x16 .f32)
    (st : Vec F S100x16 .f32) (w1 : Vec F S32x64 .f32) (b1 : Vec F S64 .f32) (w2 : Vec F S64x16 .f32) (b2 : Vec F S16 .f32) :
    Vec F S100000x16 .f32 :=
  biasAdd (agg16 (proj2 (biasRelu (agg64 (embedProj xi ct st w1) ei ea) b1) w2) ei ea) b2

end Cert.RefSpec

end
-- ==== Proof.KSpec.lean ====
/-
  The message-passing stages of the program with the kernels, spelt over that program's own names: the edge lists and
  weights with their self loops, the degree normalisation, and one round of message passing at 64 and at 16 features.
  They are the same whole-array functions as the reference's stages of the same names.
-/
import proofs.«415075_j67637144977437_2_alg».proof.Proof.Gen.KernelIdeal

noncomputable section

namespace Cert.KSpec

open Idealize.ShloMosaic Cert.KernelIdeal Cert.KernelIdeal.Gen

variable {F : FTy → Type} [FloatOps F]

/-- The source end of every edge followed by the node numbers themselves (one self loop per node). -/
def srcAll (ei : Vec F S2x3200000 .i32) : Vec F S3300000 .i32 :=
  (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0)

/-- The destination end of every edge followed by the node numbers themselves. -/
def dstAll (ei : Vec F S2x3200000 .i32) : Vec F S3300000 .i32 :=
  (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)

/-- The edge weights followed by a weight of one for every self loop. -/
def ewAll (ea : Vec F S3200000 .f32) : Vec F S3300000 .f32 :=
  (concatenate S3300000 0 [⟨S3200000, ea⟩, ⟨S100000, (broadcastInDim S100000 ![] bcast_S_S100000 (constant S_ .f32 0x3F800000#32))⟩] concatenates_S3200000_S100000_S3300000_d0)

/-- The weighted in-degree of every node: the weights summed into their destination nodes. -/
def deg (ei : Vec F S2x3200000 .i32) (ea : Vec F S3200000 .f32) : Vec F S100000 .f32 :=
  (Host.scatterAdd scatter_S100000_S3300000x1_S3300000_n_0_0_1 (broadcastInDim S100000 ![] bcast_S_S100000 (constant S_ .f32 0x00000000#32)) (broadcastInDim S3300000x1 ![0] bcast_S3300000_S3300000x1_0 (dstAll ei)) (ewAll ea))

/-- The inverse square root of a positive degree, and zero where the degree is not positive. -/
def dinv (ei : Vec F S2x3200000 .i32) (ea : Vec F S3200000 .f32) : Vec F S100000 .f32 :=
  (select (cmpf .ogt (deg ei ea) (broadcastInDim S100000 ![] bcast_S_S100000 (constant S_ .f32 0x00000000#32))) (Host.rsqrt (select (cmpf .ogt (deg ei ea) (broadcastInDim S100000 ![] bcast_S_S100000 (constant S_ .f32 0x00000000#32))) (deg ei ea) (broadcastInDim S100000 ![] bcast_S_S100000 (id (constant S_ .f32 0x3F800000#32))))) (broadcastInDim S100000 ![] bcast_S_S100000 (id (constant S_ .f32 0x00000000#32))))

/-- A vector of node numbers as a column of start indices, a negative number first wrapped by the node count. -/
def nodeCol (x : Vec F S3300000 .i32) : Vec F S3300000x1 .i32 :=
  (broadcastInDim S3300000x1 ![0] bcast_S3300000_S3300000x1_0 (select (cmpi .slt x (broadcastInDim S3300000 ![] bcast_S_S3300000 (constantI S_ 32 0#32))) (addi x (broadcastInDim S3300000 ![] bcast_S_S3300000 (constantI S_ 32 100000#32))) x))

/-- The symmetric normalisation of every edge: dinv at its source, times its weight, times dinv at its destination. -/
def norm (ei : Vec F S2x3200000 .i32) (ea : Vec F S3200000 .f32) : Vec F S3300000 .f32 :=
  (mulf (mulf (Host.gather gather_S100000_S3300000x1_S3300000_n_0_n_n_0_1_1 (dinv ei ea) (broadcastInDim S3300000x1 ![0] bcast_S3300000_S3300000x1_0 (select (cmpi .slt (srcAll ei) (broadcastInDim S3300000 ![] bcast_S_S3300000 (constantI S_ 32 0#32))) (addi (srcAll ei) (broadcastInDim S3300000 ![] bcast_S_S3300000 (constantI S_ 32 100000#32))) (srcAll ei)))) (ewAll ea)) (Host.gather gather_S100000_S3300000x1_S3300000_n_0_n_n_0_1_1 (dinv ei ea) (broadcastInDim S3300000x1 ![0] bcast_S3300000_S3300000x1_0 (select (cmpi .slt (dstAll ei) (broadcastInDim S3300000 ![] bcast_S_S3300000 (constantI S_ 32 0#32))) (addi (dstAll ei) (broadcastInDim S3300000 ![] bcast_S_S3300000 (constantI S_ 32 100000#32))) (dstAll ei)))))

/-- One round of message passing over 64 features: each edge carries its source node's row scaled by the edge's
    normalisation, and the rows are summed into the destination nodes. -/
def agg64 (x : Vec F S100000x64 .f32) (ei : Vec F S2x3200000 .i32) (ea : Vec F S3200000 .f32) : Vec F S100000x64 .f32 :=
  (Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 (dstAll ei)) (mulf (Host.gather gather_S100000x64_S3300000x1_S3300000x64_1_0_n_n_0_1_164 x (broadcastInDim S3300000x1 ![0] bcast_S3300000_S3300000x1_0 (select (cmpi .slt (srcAll ei) (broadcastInDim S3300000 ![] bcast_S_S3300000 (constantI S_ 32 0#32))) (addi (srcAll ei) (broadcastInDim S3300000 ![] bcast_S_S3300000 (constantI S_ 32 100000#32))) (srcAll ei)))) (broadcastInDim S3300000x64 ![0, 1] bcast_S3300000x1_S3300000x64_0_1 (broadcastInDim S3300000x1 ![0] bcast_S3300000_S3300000x1_0 (norm ei ea)))))

/-- The same round over 16 features. -/
def agg16 (x : Vec F S100000x16 .f32) (ei : Vec F S2x3200000 .i32) (ea : Vec F S3200000 .f32) : Vec F S100000x16 .f32 :=
  (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 (dstAll ei)) (mulf (Host.gather gather_S100000x16_S3300000x1_S3300000x16_1_0_n_n_0_1_116 x (broadcastInDim S3300000x1 ![0] bcast_S3300000_S3300000x1_0 (select (cmpi .slt (srcAll ei) (broadcastInDim S3300000 ![] bcast_S_S3300000 (constantI S_ 32 0#32))) (addi (srcAll ei) (broadcastInDim S3300000 ![] bcast_S_S3300000 (constantI S_ 32 100000#32))) (srcAll ei)))) (broadcastInDim S3300000x16 ![0, 1] bcast_S3300000x1_S3300000x16_0_1 (broadcastInDim S3300000x1 ![0] bcast_S3300000_S3300000x1_0 (norm ei ea)))))

end Cert.KSpec

end
-- ==== Proof.Bridge.lean ====
/-
  The message-passing stages spelt over the two programs' names are the same functions: each program declares its own copy of
  the shapes and of the gather, scatter, broadcast and concatenation records, and the copies have the same contents.
-/
import proofs.«415075_j67637144977437_2_alg».proof.Proof.KSpec
import proofs.«415075_j67637144977437_2_alg».proof.Proof.RefSpec
import Idealize.ShloMosaic.PureOps.Ideal.Laws

set_option maxRecDepth 16384

noncomputable section

namespace Cert.Bridge

open Idealize.ShloMosaic

/-- One round of message passing over 64 features is the same function in both spellings. -/
theorem agg64_eq (x : Vec Ideal Cert.KernelIdeal.S100000x64 .f32) (ei : Vec Ideal Cert.KernelIdeal.S2x3200000 .i32)
    (ea : Vec Ideal Cert.KernelIdeal.S3200000 .f32) :
    Cert.KSpec.agg64 (F := Ideal) x ei ea = Cert.RefSpec.agg64 (F := Ideal) x ei ea := by
  unfold Cert.KSpec.agg64 Cert.RefSpec.agg64 Cert.KSpec.norm Cert.RefSpec.norm
    Cert.KSpec.dinv Cert.RefSpec.dinv Cert.KSpec.deg Cert.RefSpec.deg Cert.KSpec.ewAll Cert.RefSpec.ewAll
    Cert.KSpec.dstAll Cert.RefSpec.dstAll Cert.KSpec.srcAll Cert.RefSpec.srcAll
  rfl

/-- One round of message passing over 16 features is the same function in both spellings. -/
theorem agg16_eq (x : Vec Ideal Cert.KernelIdeal.S100000x16 .f32) (ei : Vec Ideal Cert.KernelIdeal.S2x3200000 .i32)
    (ea : Vec Ideal Cert.KernelIdeal.S3200000 .f32) :
    Cert.KSpec.agg16 (F := Ideal) x ei ea = Cert.RefSpec.agg16 (F := Ideal) x ei ea := by
  unfold Cert.KSpec.agg16 Cert.RefSpec.agg16 Cert.KSpec.norm Cert.RefSpec.norm
    Cert.KSpec.dinv Cert.RefSpec.dinv Cert.KSpec.deg Cert.RefSpec.deg Cert.KSpec.ewAll Cert.RefSpec.ewAll
    Cert.KSpec.dstAll Cert.RefSpec.dstAll Cert.KSpec.srcAll Cert.RefSpec.srcAll
  rfl

end Cert.Bridge

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.LibGatherRows.lean ====
/-
  A gather that takes whole ROWS of a rank-2 table (what `table[idx]` prints for an `[N, C]` table and a vector of `n`
  row numbers laid out as an `[n, 1]` column of start indices): offset axis 1, collapsed axis 0, start index map `[0]`, the
  index vector along axis 1 of the start indices, slices of one row.

  Read at result index `(p, q)` it is the table at `(r, q)`, where `r` is start index `p` read signed and clamped into
  `[0, N − 1]`: on the row axis the operand coordinate is the clamped start (no batching axis, and a collapsed axis has
  no offset); on the column axis there is no start, and the offset coordinate is the result's own column.
-/
import Idealize.ShloMosaic.PureOps
import Idealize.ShloMosaic.Lib.ValueIdx

namespace Idealize.ShloMosaic.GatherRows

open Idealize.ShloMosaic Idealize.ShloMosaic.ValueIdx

variable {α : Type}

/-- The dimension numbers of a row-take from an `[N, C]` table by an `[n, 1]` column of row numbers. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW-TAKE READ AT `(p, q)`: the table at row `idx[p, 0]` (signed, clamped into `[0, N − 1]`), column `q`. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 ⟨min (idx (ix2 p ⟨0, Nat.one_pos⟩)).toInt.toNat (N - 1), by omega⟩ q) := by
  unfold Host.gather
  congr 1
  funext a
  refine Fin.ext ?_
  show (rowDims N C n wf).start (ix2 p q) idx a + (rowDims N C n wf).batchCoord (ix2 p q) a
    + (rowDims N C n wf).offCoord (ix2 p q) a = _
  rw [GatherDims.batchCoord_eq_zero _ _ _ List.not_mem_nil, Nat.add_zero]
  match a with
  | ⟨0, _⟩ =>
    -- the row axis: collapsed, so no offset; its start is the clamped start index
    rw [GatherDims.offCoord_eq_zero _ _ _
      (fun h => ((GatherDims.mem_sKept _ _).mp h).1 (List.mem_singleton.mpr rfl)), Nat.add_zero]
    unfold GatherDims.start
    rw [dif_pos (show (⟨0, by decide⟩ : Fin 2) ∈ (rowDims N C n wf).startIndexMap from List.mem_singleton.mpr rfl)]
    have hsi : (rowDims N C n wf).siIdx (ix2 p q)
        ⟨List.idxOf (⟨0, by decide⟩ : Fin 2) (rowDims N C n wf).startIndexMap,
          List.idxOf_lt_length_iff.2 (List.mem_singleton.mpr rfl)⟩ = ix2 p ⟨0, Nat.one_pos⟩ := by
      funext b; refine Fin.ext ?_
      match b with
      | ⟨0, _⟩ => rfl
      | ⟨1, _⟩ => rfl
    rw [hsi]
    rfl
  | ⟨1, _⟩ =>
    -- the column axis: no start index names it; the offset is the result's own column
    have hs : (rowDims N C n wf).start (ix2 p q) idx (⟨1, Nat.one_lt_two⟩ : Fin 2) = 0 := by
      unfold GatherDims.start
      rw [dif_neg (fun h => by have := congrArg Fin.val (List.mem_singleton.mp h); simp at this)]
    rw [hs, Nat.zero_add]
    rfl

end Idealize.ShloMosaic.GatherRows
-- ==== Proof.Region0.lean ====
/-
  The first kernel region's result array. Each grid point takes 10000 rows of class numbers, turns each number into a 0/1 row
  against the table's row numbers, multiplies that row into the class table (which picks the table's row), and multiplies the
  two picked embeddings into the two halves of the first weight matrix; the ten blocks tile the 100000 rows. With every class
  number inside its table this is the reference's lookup-concatenate-project stage.
-/
import proofs.«415075_j67637144977437_2_alg».proof.Proof.Gen.KernelIdeal.Frame
import proofs.«415075_j67637144977437_2_alg».proof.Proof.RefSpec
import proofs.«415075_j67637144977437_2_alg».proof.Proof.LibPlainMatmul
import proofs.«415075_j67637144977437_2_alg».proof.Proof.LibGatherRows
import Idealize.ShloMosaic.Lib.ValueIdx
import Idealize.ShloMosaic.Lib.Pipeline.Value
import Idealize.ShloMosaic.Lib.StackMember
import Idealize.ShloMosaic.Lib.StableHlo.Predicate

set_option maxRecDepth 16384

noncomputable section

/-! ## The reference's stage, read at an index -/

namespace Cert.Region0Ref

open Idealize.ShloMosaic Idealize.ShloMosaic.ValueIdx Cert.ReferenceIdeal Cert.ReferenceIdeal.Gen Cert.RefSpec

/-- A sum over 32 terms is the sum of its first 16 and of its last 16. -/
theorem sum_fin32 (f : Fin 32 → EReal) :
    ∑ c : Fin 32, f c = (∑ k : Fin 16, f ⟨k.val, by omega⟩) + ∑ k : Fin 16, f ⟨16 + k.val, by omega⟩ :=
  Fin.sum_univ_add (a := 16) (b := 16) f

/-- A class number that is not negative is left alone by the wrap "add the table's length where negative". -/
theorem wrap_id (v m : BitVec 32) (hv : v.toNat < 2 ^ 31) :
    Scalar.select (IntOp.cmpi .slt v 0#32) (IntOp.addi v m) v = v := by
  have h : IntOp.cmpi .slt v 0#32 = 0#1 := by
    apply eq_zero_of_ne_one
    rw [StableHlo.Predicate.slt_iff_toNat hv (by decide)]
    simp
  rw [h, select_zero]

/-- The column of start indices the reference gathers with, read at row `p`: the class number in column `o` of row `p`,
    when it is not negative. -/
theorem col_apply (xi : Vec Ideal S100000x2 .i32) (o : Nat) (ho : o < 2) (hs : S100000x2.Slices ![0, o] S100000x1) (m : BitVec 32)
    (p : Fin 100000) (hv : (xi (ix2 p ⟨o, ho⟩)).toNat < 2 ^ 31) :
    broadcastInDim S100000x1 ![0] bcast_S100000_S100000x1_0
      (select (cmpi .slt (shapeCast _ (extractStridedSlice S100000x1 ![0, o] xi hs) shapeCasts_S100000x1_S100000)
          (broadcastInDim S100000 ![] bcast_S_S100000 (constantI S_ 32 0#32)))
        (addi (shapeCast _ (extractStridedSlice S100000x1 ![0, o] xi hs) shapeCasts_S100000x1_S100000)
          (broadcastInDim S100000 ![] bcast_S_S100000 (constantI S_ 32 m)))
        (shapeCast _ (extractStridedSlice S100000x1 ![0, o] xi hs) shapeCasts_S100000x1_S100000)) (ix2 p ⟨0, Nat.one_pos⟩)
      = xi (ix2 p ⟨o, ho⟩) := by
  have hcast : shapeCast S100000 (extractStridedSlice S100000x1 ![0, o] xi hs) shapeCasts_S100000x1_S100000 (ix1 p) = xi (ix2 p ⟨o, ho⟩) := by
    rw [shapeCast_apply _ shapeCasts_S100000x1_S100000 (ix1 p) (ix2 p ⟨0, Nat.one_pos⟩) (by
      rw [Shape.rowMajor_val_two, Shape.rowMajor_val_one]; show p.val * 1 + 0 = p.val; omega)]
    exact extractStridedSlice_apply ![0, o] xi hs (ix2 p ⟨0, Nat.one_pos⟩) (ix2 p ⟨o, ho⟩) (fun x => by
      match x with
      | ⟨0, _⟩ => show p.val = 0 + p.val; omega
      | ⟨1, _⟩ => show o = o + 0; omega)
  rw [broadcastInDim_apply _ bcast_S100000_S100000x1_0 _ (ix2 p ⟨0, Nat.one_pos⟩) (ix1 p) (fun x => by
    match x with
    | ⟨0, _⟩ => rfl)]
  show Scalar.select (IntOp.cmpi .slt (shapeCast S100000 (extractStridedSlice S100000x1 ![0, o] xi hs) shapeCasts_S100000x1_S100000 (ix1 p)) 0#32)
      (IntOp.addi (shapeCast S100000 (extractStridedSlice S100000x1 ![0, o] xi hs) shapeCasts_S100000x1_S100000 (ix1 p)) m)
      (shapeCast S100000 (extractStridedSlice S100000x1 ![0, o] xi hs) shapeCasts_S100000x1_S100000 (ix1 p)) = _
  rw [hcast]
  exact wrap_id _ m hv

theorem dotR_plain : dot_S100000x32_S32x64_S100000x64_1_0_0_1_n_n = DotDims.plain 100000 32 64 := rfl
theorem gatherC_rows : gather_S200x16_S100000x1_S100000x16_1_0_n_n_0_1_116
    = GatherRows.rowDims 200 16 100000 gather_S200x16_S100000x1_S100000x16_1_0_n_n_0_1_116_wf := rfl
theorem gatherS_rows : gather_S100x16_S100000x1_S100000x16_1_0_n_n_0_1_116
    = GatherRows.rowDims 100 16 100000 gather_S100x16_S100000x1_S100000x16_1_0_n_n_0_1_116_wf := rfl

/-- A row-take from an `[N, 16]` table by a column whose entry at row `p` is the word `v`, a number `n` below `N`: row `p` of
    the result is the table's row `n`. -/
theorem take_apply {N : Nat} (hN : 0 < N) (hN' : N ≤ 2 ^ 31)
    (wf : GatherDims.WF ⟨2, ![N, 16]⟩ ⟨2, ![100000, 1]⟩ ⟨2, ![100000, 16]⟩ [1] [0] [] [0] [] 1 ![1, 16])
    (T : (⟨2, ![N, 16]⟩ : Shape).Idx → EReal) (idx : IVec ⟨2, ![100000, 1]⟩ 32) (p : Fin 100000) (k : Fin 16)
    (v : BitVec 32) (hidx : idx (ix2 p ⟨0, Nat.one_pos⟩) = v) (n : Fin N) (hv : v.toNat = n.val) :
    Host.gather (GatherRows.rowDims N 16 100000 wf) T idx (ix2 p k) = T (ix2 n k) := by
  rw [GatherRows.gather_rows_apply hN wf T idx p k]
  congr 2
  apply Fin.ext
  show min (idx (ix2 p ⟨0, Nat.one_pos⟩)).toInt.toNat (N - 1) = n.val
  have hn := n.isLt
  rw [hidx, StableHlo.Predicate.toInt_eq_toNat_of_lt (by omega), hv, Int.toNat_natCast]
  omega

/-- THE REFERENCE'S STAGE AT AN INDEX: with row `p`'s two class numbers `n0`, `n1` inside their tables, entry `(p, q)` is the
    class table's row `n0` against the first 16 rows of column `q` of the weight matrix plus the other table's row `n1` against
    its last 16 rows. -/
theorem embedProj_apply (xi : Vec Ideal S100000x2 .i32) (ct : Vec Ideal S200x16 .f32) (st : Vec Ideal S100x16 .f32) (w1 : Vec Ideal S32x64 .f32)
    (p : Fin 100000) (q : Fin 64) (n0 : Fin 200) (n1 : Fin 100)
    (h0 : (xi (ix2 p ⟨0, by decide⟩)).toNat = n0.val) (h1 : (xi (ix2 p ⟨1, by decide⟩)).toNat = n1.val) :
    embedProj (F := Ideal) xi ct st w1 (ix2 p q)
      = (∑ k : Fin 16, ct (ix2 n0 k) * w1 (ix2 ⟨k.val, by omega⟩ q)) + ∑ k : Fin 16, st (ix2 n1 k) * w1 (ix2 ⟨16 + k.val, by omega⟩ q) := by
  unfold embedProj
  rw [dotR_plain, StackMember.dotGeneral_plain_apply, sum_fin32]
  congr 1
  · refine Finset.sum_congr rfl fun k _ => ?_
    congr 1
    rw [concatenate_pair_apply_left (t := S100000x32) (s₁ := S100000x16) (s₂ := S100000x16) (1 : Fin 2) _ _
      concatenates_S100000x16_S100000x16_S100000x32_d1 (ix2 p (⟨k.val, by omega⟩ : Fin 32)) rfl (ix2 p k)
      (fun b => by
        match b with
        | ⟨0, _⟩ => rfl
        | ⟨1, _⟩ => rfl), gatherC_rows]
    exact take_apply (by decide) (by decide) _ ct _ p k _
      (col_apply xi 0 (by decide) slices_S100000x2_S100000x1_0_0 200#32 p (by have := n0.isLt; omega)) n0 h0
  · refine Finset.sum_congr rfl fun k _ => ?_
    congr 1
    rw [concatenate_pair_apply_right (t := S100000x32) (s₁ := S100000x16) (s₂ := S100000x16) (1 : Fin 2) _ _
      concatenates_S100000x16_S100000x16_S100000x32_d1 (ix2 p (⟨16 + k.val, by omega⟩ : Fin 32)) rfl rfl (ix2 p k)
      (fun b hb => by
        match b with
        | ⟨0, _⟩ => rfl
        | ⟨1, _⟩ => exact absurd rfl hb)
      (by show k.val + 16 = 16 + k.val; omega), gatherS_rows]
    exact take_apply (by decide) (by decide) _ st _ p k _
      (col_apply xi 1 (by decide) slices_S100000x2_S100000x1_0_1 100#32 p (by have := n1.isLt; omega)) n1 h1

end Cert.Region0Ref

/-! ## The kernel region -/

namespace Cert.KernelIdeal.Region0

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- A 0/1 word read as a number: one where the two words agree, zero elsewhere. -/
theorem onehot_entry (a v : BitVec 32) :
    (FloatOps.sitofp (F := Ideal) .f32 ((IntOp.cmpi .eq a v).setWidth 32) : EReal) = if a = v then 1 else 0 := by
  show ((((IntOp.cmpi .eq a v).setWidth 32).toInt : ℝ) : EReal) = _
  by_cases h : a = v
  · subst h
    rw [if_pos rfl]
    have : ((IntOp.cmpi .eq a a).setWidth 32).toInt = 1 := by
      simp [IntOp.cmpi]
    rw [this]; simp
  · rw [if_neg h]
    have hb : (a == v) = false := beq_eq_false_iff_ne.mpr h
    have : ((IntOp.cmpi .eq a v).setWidth 32).toInt = 0 := by
      simp [IntOp.cmpi, hb]
    rw [this]; simp

/-- A row of zeros with a single one at column `n`, summed against a column, is that column's entry `n`. -/
theorem sum_onehot {K : Nat} (n : Fin K) (hK : K ≤ 2 ^ 32) (v : BitVec 32) (hv : v.toNat = n.val) (f : Fin K → EReal) :
    ∑ a : Fin K, (if BitVec.ofNat 32 a.val = v then (1 : EReal) else 0) * f a = f n := by
  rw [Finset.sum_eq_single n]
  · rw [if_pos, one_mul]
    apply BitVec.eq_of_toNat_eq
    rw [BitVec.toNat_ofNat, hv, Nat.mod_eq_of_lt]
    have := n.isLt; omega
  · intro b _ hb
    rw [if_neg, zero_mul]
    intro e
    apply hb
    apply Fin.ext
    have := congrArg BitVec.toNat e
    rw [BitVec.toNat_ofNat, hv, Nat.mod_eq_of_lt (by have := b.isLt; omega)] at this
    exact this
  · intro h; exact absurd (Finset.mem_univ n) h

/-- The 0/1 row a class-number column makes against the column numbers: entry `(r, a)` is one exactly when `a`, as a
    word, is row `r`'s class number. -/
theorem hot_apply {M K : Nat} (hi : (⟨2, ![M, K]⟩ : Shape).Iotas .tc 32 [1])
    (hb : (⟨2, ![M, 1]⟩ : Shape).Broadcasts ⟨2, ![M, K]⟩) (h132 : 1 < 32) (hbits : FTy.bits .bf16 < FTy.bits .f32)
    (col : IVec ⟨2, ![M, 1]⟩ 32) (r : Fin M) (a : Fin K) :
    (truncf .bf16 (sitofp .f32 (extui 32 (cmpi .eq (iota .tc ⟨2, ![M, K]⟩ 32 [1] hi) (broadcastTo ⟨2, ![M, K]⟩ col hb)) h132) : FVec Ideal ⟨2, ![M, K]⟩ .f32) hbits
        : FVec Ideal ⟨2, ![M, K]⟩ .bf16) (ix2 r a)
      = if BitVec.ofNat 32 a.val = col (ix2 r ⟨0, Nat.one_pos⟩) then 1 else 0 := by
  show (FloatOps.sitofp (F := Ideal) .f32 ((IntOp.cmpi .eq (iota .tc ⟨2, ![M, K]⟩ 32 [1] hi (ix2 r a))
    (broadcastTo ⟨2, ![M, K]⟩ col hb (ix2 r a))).setWidth 32) : EReal) = _
  rw [iota_single_apply, broadcastTo_apply col hb (ix2 r a) (ix2 r ⟨0, Nat.one_pos⟩) (fun x => by
    match x with
    | ⟨0, _⟩ =>
      show r.val = if M = 1 then 0 else r.val
      split
      · have := r.isLt; omega
      · rfl
    | ⟨1, _⟩ => rfl), onehot_entry]
  rfl

/-- A 0/1 matrix whose row `r` has its single one at column `n`, times a table: row `r` of the product is the table's
    row `n`. Nothing is asked of the table's entries: zero times any extended real is zero. -/
theorem pick_apply {M K N : Nat} (hK : K ≤ 2 ^ 32) (D : DotDims ⟨2, ![M, K]⟩ ⟨2, ![K, N]⟩ ⟨2, ![M, N]⟩) (hD : D = DotDims.plain M K N)
    (oh T : _) (r : Fin M) (c : Fin N) (v : BitVec 32) (n : Fin K) (hv : v.toNat = n.val)
    (hoh : ∀ a : Fin K, (oh : FVec Ideal ⟨2, ![M, K]⟩ .bf16) (ix2 r a) = if BitVec.ofNat 32 a.val = v then 1 else 0) :
    FloatOps.matmul D none oh (T : FVec Ideal ⟨2, ![K, N]⟩ .bf16) (constant ⟨2, ![M, N]⟩ .f32 0x00000000#32) (ix2 r c) = T (ix2 n c) := by
  subst hD
  rw [Cert.PlainMatmul.apply]
  simp only [hoh]
  exact sum_onehot n hK v hv fun a => T (ix2 a c)

theorem dot1_plain : dot_S10000x200_S200x16_S10000x16_1_0_0_1_n_n = DotDims.plain 10000 200 16 := rfl
theorem dot2_plain : dot_S10000x100_S100x16_S10000x16_1_0_0_1_n_n = DotDims.plain 10000 100 16 := rfl
theorem dot3_plain : dot_S10000x16_S16x64_S10000x64_1_0_0_1_n_n = DotDims.plain 10000 16 64 := rfl

/-- The body's payload as one tree of operations of its loaded blocks. -/
theorem pay_eq (x0 : Vec Ideal S10000x2 .i32) (ct : Vec Ideal S200x16 .f32) (st : Vec Ideal S100x16 .f32) (wa wb : Vec Ideal S16x64 .f32) :
    k0_pay1 x0 ct st wa wb
      = addf
          (matmul dot_S10000x16_S16x64_S10000x64_1_0_0_1_n_n none
            (truncf .bf16 (matmul dot_S10000x200_S200x16_S10000x16_1_0_0_1_n_n none
              (truncf .bf16 (sitofp .f32 (extui 32 (cmpi .eq (iota .tc S10000x200 32 [1] iota_S10000x200_d1_w32)
                (broadcastTo S10000x200 (extractStridedSlice S10000x1 ![0, 0] x0 slices_S10000x2_o0_0_S10000x1) broadcasts_S10000x1_S10000x200)) natLt_1_32) : FVec Ideal S10000x200 .f32) bitsLt_bf16_f32)
              (truncf .bf16 ct bitsLt_bf16_f32) (constant S10000x16 .f32 0x00000000#32)) bitsLt_bf16_f32)
            (truncf .bf16 (shapeCast S16x64 wa shapeCasts_S16x64_S16x64) bitsLt_bf16_f32) (constant S10000x64 .f32 0x00000000#32))
          (matmul dot_S10000x16_S16x64_S10000x64_1_0_0_1_n_n none
            (truncf .bf16 (matmul dot_S10000x100_S100x16_S10000x16_1_0_0_1_n_n none
              (truncf .bf16 (sitofp .f32 (extui 32 (cmpi .eq (iota .tc S10000x100 32 [1] iota_S10000x100_d1_w32)
                (broadcastTo S10000x100 (extractStridedSlice S10000x1 ![0, 1] x0 slices_S10000x2_o0_1_S10000x1) broadcasts_S10000x1_S10000x100)) natLt_1_32) : FVec Ideal S10000x100 .f32) bitsLt_bf16_f32)
              (truncf .bf16 st bitsLt_bf16_f32) (constant S10000x16 .f32 0x00000000#32)) bitsLt_bf16_f32)
            (truncf .bf16 (shapeCast S16x64 wb shapeCasts_S16x64_S16x64) bitsLt_bf16_f32) (constant S10000x64 .f32 0x00000000#32)) := rfl

/-- THE PAYLOAD AT AN INDEX: with row `r`'s two class numbers `n0`, `n1` inside their tables, entry `(r, q)` is the class
    table's row `n0` against column `q` of the first weight block plus the other table's row `n1` against column `q` of the second. -/
theorem pay_apply (x0 : Vec Ideal S10000x2 .i32) (ct : Vec Ideal S200x16 .f32) (st : Vec Ideal S100x16 .f32) (wa wb : Vec Ideal S16x64 .f32)
    (r : Fin 10000) (q : Fin 64) (n0 : Fin 200) (n1 : Fin 100)
    (h0 : (x0 (ix2 r (0 : Fin 2))).toNat = n0.val) (h1 : (x0 (ix2 r (1 : Fin 2))).toNat = n1.val) :
    k0_pay1 x0 ct st wa wb (ix2 r q)
      = (∑ k : Fin 16, ct (ix2 n0 k) * wa (ix2 k q)) + ∑ k : Fin 16, st (ix2 n1 k) * wb (ix2 k q) := by
  rw [pay_eq, addf_apply]
  simp only [matmul]
  rw [dot3_plain, Cert.PlainMatmul.apply, Cert.PlainMatmul.apply]
  congr 1
  · refine Finset.sum_congr rfl fun k _ => ?_
    rw [truncf_apply, truncf_apply, shapeCast_self]
    congr 1
    rw [pick_apply (by norm_num) _ dot1_plain _ _ r k (x0 (ix2 r (0 : Fin 2))) n0 h0 (fun a => ?_)]
    · rw [truncf_apply]
    · rw [hot_apply]
      rw [extractStridedSlice_apply ![0, 0] x0 slices_S10000x2_o0_0_S10000x1 (ix2 r ⟨0, Nat.one_pos⟩) (ix2 r (0 : Fin 2)) (fun x => by
        match x with
        | ⟨0, _⟩ => show r.val = 0 + r.val; omega
        | ⟨1, _⟩ => rfl)]
  · refine Finset.sum_congr rfl fun k _ => ?_
    rw [truncf_apply, truncf_apply, shapeCast_self]
    congr 1
    rw [pick_apply (by norm_num) _ dot2_plain _ _ r k (x0 (ix2 r (1 : Fin 2))) n1 h1 (fun a => ?_)]
    · rw [truncf_apply]
    · rw [hot_apply]
      rw [extractStridedSlice_apply ![0, 1] x0 slices_S10000x2_o0_1_S10000x1 (ix2 r ⟨0, Nat.one_pos⟩) (ix2 r (1 : Fin 2)) (fun x => by
        match x with
        | ⟨0, _⟩ => show r.val = 0 + r.val; omega
        | ⟨1, _⟩ => rfl)]

theorem hz : (![0, 0] : Fin 2 → Nat) = fun _ => 0 := funext fun a => by fin_cases a <;> rfl

/-- The region's result, index by index: row `p` is the class table's row at `p`'s first class number against the first weight
    block, plus the other table's row at its second class number against the second weight block. -/
def G (xi : Vec Ideal S100000x2 .i32) (ct : Vec Ideal S200x16 .f32) (st : Vec Ideal S100x16 .f32) (wa wb : Vec Ideal S16x64 .f32)
    (hidx : ∀ p : Fin 100000, (xi (ix2 p (0 : Fin 2))).toNat < 200 ∧ (xi (ix2 p (1 : Fin 2))).toNat < 100) :
    S100000x64.Idx → Elt Ideal .f32 := fun i =>
  (∑ k : Fin 16, ct (ix2 ⟨(xi (ix2 (i 0) (0 : Fin 2))).toNat, (hidx (i 0)).1⟩ k) * wa (ix2 k (i 1)))
    + ∑ k : Fin 16, st (ix2 ⟨(xi (ix2 (i 0) (1 : Fin 2))).toNat, (hidx (i 0)).2⟩ k) * wb (ix2 k (i 1))

/-- The printed index maps, decided over the grid: the class-number window moves with the output window along the rows,
    which sits at block `t` at point `t`; every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The payload of a block of 10000 rows that starts at row `T * 10000` of the class numbers is that block of `G`. -/
theorem pay_block (xi : Vec Ideal S100000x2 .i32) (ct : Vec Ideal S200x16 .f32) (st : Vec Ideal S100x16 .f32) (wa wb : Vec Ideal S16x64 .f32)
    (hidx : ∀ p : Fin 100000, (xi (ix2 p (0 : Fin 2))).toNat < 200 ∧ (xi (ix2 p (1 : Fin 2))).toNat < 100)
    (x0 : Vec Ideal S10000x2 .i32) (T : Nat) (hT : T < 10)
    (hx0 : ∀ (r : Fin 10000) (a : Fin 2), x0 (ix2 r a) = xi (ix2 ⟨T * 10000 + r.val, by have := r.isLt; omega⟩ a))
    (r : Fin 10000) (q : Fin 64) :
    k0_pay1 x0 ct st wa wb (ix2 r q) = G xi ct st wa wb hidx (ix2 ⟨T * 10000 + r.val, by have := r.isLt; omega⟩ q) := by
  rw [pay_apply x0 ct st wa wb r q ⟨_, (hidx ⟨T * 10000 + r.val, by have := r.isLt; omega⟩).1⟩
    ⟨_, (hidx ⟨T * 10000 + r.val, by have := r.isLt; omega⟩).2⟩ (by rw [hx0]) (by rw [hx0])]
  rfl

/-- WHAT POINT `t` WRITES BACK is block `t` of `G` of the arrays as the region finds them. -/
theorem flushed_eq (c : Dev nD) (t : Fin cfg0.N)
    (hidx : ∀ p : Fin 100000, (V c main_arg0 (ix2 p (0 : Fin 2))).toNat < 200 ∧ (V c main_arg0 (ix2 p (1 : Fin 2))).toNat < 100) :
    (dat0 (F := Ideal) V c).flushed 5 t
      = ((cfg0.win 5).blk t).view.read (Elt Ideal) (G (V c main_arg0) (V c main_arg3) (V c main_arg4) (V c main_v4) (V c main_v5) hidx) := by
  show (cfg0.win 5).cut (grid0.coords t) ((dat0 V c).after 5 t) = _
  rw [after0_5]
  unfold out0_5
  rw [View.canon_unit_zero hz]
  simp only [View.ld_unit_zero (S := S10000x2) hz, View.ld_unit_zero (S := S200x16) hz, View.ld_unit_zero (S := S100x16) hz,
    View.ld_unit_zero (S := S16x64) hz]
  obtain ⟨e00, e01, e10, e11, e20, e21, e30, e31, e40, e41, e50, e51⟩ := idx_facts t
  have ht : t.val < 10 := Nat.lt_of_lt_of_eq t.isLt N_0
  have b1 : iblk0 V c 1 t = V c main_arg3 := by
    funext j
    show V c main_arg3 (((cfg0.win 1).blk t).view.emb j) = V c main_arg3 j
    congr 1
    funext a; apply Fin.ext
    match a with
    | ⟨0, _⟩ => show win0_1.index t (0 : Fin 2) * 200 + 1 * (j 0).val = (j 0).val; omega
    | ⟨1, _⟩ => show win0_1.index t (1 : Fin 2) * 16 + 1 * (j 1).val = (j 1).val; omega
  have b2 : iblk0 V c 2 t = V c main_arg4 := by
    funext j
    show V c main_arg4 (((cfg0.win 2).blk t).view.emb j) = V c main_arg4 j
    congr 1
    funext a; apply Fin.ext
    match a with
    | ⟨0, _⟩ => show win0_2.index t (0 : Fin 2) * 100 + 1 * (j 0).val = (j 0).val; omega
    | ⟨1, _⟩ => show win0_2.index t (1 : Fin 2) * 16 + 1 * (j 1).val = (j 1).val; omega
  have b3 : iblk0 V c 3 t = V c main_v4 := by
    funext j
    show V c main_v4 (((cfg0.win 3).blk t).view.emb j) = V c main_v4 j
    congr 1
    funext a; apply Fin.ext
    match a with
    | ⟨0, _⟩ => show win0_3.index t (0 : Fin 2) * 16 + 1 * (j 0).val = (j 0).val; omega
    | ⟨1, _⟩ => show win0_3.index t (1 : Fin 2) * 64 + 1 * (j 1).val = (j 1).val; omega
  have b4 : iblk0 V c 4 t = V c main_v5 := by
    funext j
    show V c main_v5 (((cfg0.win 4).blk t).view.emb j) = V c main_v5 j
    congr 1
    funext a; apply Fin.ext
    match a with
    | ⟨0, _⟩ => show win0_4.index t (0 : Fin 2) * 16 + 1 * (j 0).val = (j 0).val; omega
    | ⟨1, _⟩ => show win0_4.index t (1 : Fin 2) * 64 + 1 * (j 1).val = (j 1).val; omega
  have b0 : ∀ (r : Fin 10000) (a : Fin 2), iblk0 V c 0 t (ix2 r a) = V c main_arg0 (ix2 ⟨t.val * 10000 + r.val, by have := r.isLt; omega⟩ a) := by
    intro r a
    show V c main_arg0 (((cfg0.win 0).blk t).view.emb (ix2 r a)) = _
    congr 1
    funext b; apply Fin.ext
    match b with
    | ⟨0, _⟩ => show win0_0.index t (0 : Fin 2) * 10000 + 1 * r.val = t.val * 10000 + r.val; omega
    | ⟨1, _⟩ => show win0_0.index t (1 : Fin 2) * 2 + 1 * a.val = a.val; omega
  rw [b1, b2, b3, b4]
  refine funext fun (j : (⟨2, ![10000, 64]⟩ : Shape).Idx) => ?_
  obtain ⟨r, q, rfl⟩ : ∃ (r : Fin 10000) (q : Fin 64), j = ix2 r q := ⟨j 0, j 1, eq_ix2 j⟩
  show k0_pay1 (iblk0 V c 0 t) (V c main_arg3) (V c main_arg4) (V c main_v4) (V c main_v5) (ix2 r q)
    = G (V c main_arg0) (V c main_arg3) (V c main_arg4) (V c main_v4) (V c main_v5) hidx (((cfg0.win 5).blk t).view.emb (ix2 r q))
  rw [pay_block (V c main_arg0) (V c main_arg3) (V c main_arg4) (V c main_v4) (V c main_v5) hidx (iblk0 V c 0 t) t.val ht b0 r q]
  congr 1
  funext a; apply Fin.ext
  match a with
  | ⟨0, _⟩ => show t.val * 10000 + r.val = win0_5.index t (0 : Fin 2) * 10000 + 1 * r.val; omega
  | ⟨1, _⟩ => show q.val = win0_5.index t (1 : Fin 2) * 64 + 1 * q.val; omega

/-- An index of the result array is in point `t`'s block iff each coordinate is in the block's range on its axis. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v6).slice (win0_5.rect t)).set ↔ _
  rw [View.set_slice_whole, Rect.mem_set_unit]
  exact Iff.rfl

/-- The ten blocks of 10000 rows tile the 100000 rows: row `r` is in the block of point `r / 10000`. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨e00, e01, e10, e11, e20, e21, e30, e31, e40, e41, e50, e51⟩ := idx_facts t
  have e50' : win0_5.index t (0 : Fin 2) = (i 0).val / 10000 := e50
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- THE ARRAY after the region: `G` of the arrays as the region finds them. -/
theorem arr_eq_G (c : Dev nD)
    (hidx : ∀ p : Fin 100000, (V c main_arg0 (ix2 p (0 : Fin 2))).toNat < 200 ∧ (V c main_arg0 (ix2 p (1 : Fin 2))).toNat < 100) :
    (dat0 (F := Ideal) V c).arrAt 5 cfg0.N = G (V c main_arg0) (V c main_arg3) (V c main_arg4) (V c main_v4) (V c main_v5) hidx :=
  (dat0 (F := Ideal) V c).arrAt_eq_of_cover 5 _ (fun t _ => flushed_eq V c t hidx) cover

/-- After the region, its output array is the reference's embedding-and-projection stage of the region's entry arrays, when the
    two weight windows hold the two halves of one matrix and every class number lies inside its table. -/
theorem final (c : Dev nD) (w1 : Vec Ideal S32x64 .f32)
    (hWa : V c main_v4 = extractStridedSlice S16x64 ![0, 0] w1 slices_S32x64_S16x64_0_0)
    (hWb : V c main_v5 = extractStridedSlice S16x64 ![16, 0] w1 slices_S32x64_S16x64_16_0)
    (hidx : ∀ p : Fin 100000, (V c main_arg0 (ix2 p (0 : Fin 2))).toNat < 200 ∧ (V c main_arg0 (ix2 p (1 : Fin 2))).toNat < 100) :
    (dat0 (F := Ideal) V c).arrAt 5 cfg0.N
      = Cert.RefSpec.embedProj (F := Ideal) (V c main_arg0) (V c main_arg3) (V c main_arg4) w1 := by
  rw [arr_eq_G V c hidx]
  funext i
  obtain ⟨p, q, rfl⟩ : ∃ (p : Fin 100000) (q : Fin 64), i = ix2 p q := ⟨i 0, i 1, eq_ix2 i⟩
  rw [Cert.Region0Ref.embedProj_apply (V c main_arg0) (V c main_arg3) (V c main_arg4) w1 p q ⟨_, (hidx p).1⟩ ⟨_, (hidx p).2⟩ rfl rfl]
  -- the two weight windows, entry by entry, are the matrix's first and last 16 rows
  have ea : ∀ k : Fin 16, V c main_v4 (ix2 k q) = w1 (ix2 ⟨k.val, by omega⟩ q) := fun k => by
    rw [hWa]
    exact extractStridedSlice_apply ![0, 0] w1 slices_S32x64_S16x64_0_0 (ix2 k q) (ix2 ⟨k.val, by omega⟩ q) (fun x => by
      match x with
      | ⟨0, _⟩ => show k.val = 0 + k.val; omega
      | ⟨1, _⟩ => show q.val = 0 + q.val; omega)
  have eb : ∀ k : Fin 16, V c main_v5 (ix2 k q) = w1 (ix2 ⟨16 + k.val, by omega⟩ q) := fun k => by
    rw [hWb]
    exact extractStridedSlice_apply ![16, 0] w1 slices_S32x64_S16x64_16_0 (ix2 k q) (ix2 ⟨16 + k.val, by omega⟩ q) (fun x => by
      match x with
      | ⟨0, _⟩ => show 16 + k.val = 16 + k.val; rfl
      | ⟨1, _⟩ => show q.val = 0 + q.val; omega)
  unfold G
  exact congrArg₂ (· + ·) (Finset.sum_congr rfl fun k _ => congrArg₂ (· * ·) rfl (ea k))
    (Finset.sum_congr rfl fun k _ => congrArg₂ (· * ·) rfl (eb k))

end Cert.KernelIdeal.Region0

end
-- ==== Proof.Region1.lean ====
/-
  The second kernel region's result array: every block adds the bias row to its 10000 rows and takes the positive part; the ten
  blocks tile the array. This is the reference's bias-and-positive-part stage.
-/
import proofs.«415075_j67637144977437_2_alg».proof.Proof.Gen.KernelIdeal.Frame
import proofs.«415075_j67637144977437_2_alg».proof.Proof.RefSpec
import Idealize.ShloMosaic.Lib.ValueIdx
import Idealize.ShloMosaic.Lib.ValueLayout
import Idealize.ShloMosaic.Lib.Pipeline.Value

set_option maxRecDepth 16384

noncomputable section

namespace Cert.KernelIdeal.Region1

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- A whole-block access starts at offset zero on both axes. -/
theorem zero_offsets : (![0, 0] : Fin 2 → Nat) = fun _ => 0 :=
  funext fun a => match a with | ⟨0, _⟩ => rfl | ⟨1, _⟩ => rfl

/-! ## One entry of the stored block, and one entry of the reference's stage -/

/-- Entry (p, q) of the block the body stores: the block's entry plus the bias row's entry of column q, then the larger of
    that and the zero word. -/
theorem stored_entry (x : Vec Ideal S10000x64 .f32) (row : Vec Ideal S1x64 .f32) (p : Fin 10000) (q : Fin 64) :
    k1_pay1 x row (ix2 p q) = max (x (ix2 p q) + row (ix2 (0 : Fin 1) q)) (Ideal.ofBits .f32 0x00000000#32) := by
  unfold k1_pay1
  rw [maximumf_apply, addf_apply, shapeCast_self, shapeCast_self, broadcastTo_1b_ab_apply, broadcast_apply]
  rfl

/-- Entry (r, q) of the reference's stage: the array's entry plus the bias vector's entry q (the vector laid as one row, the
    row repeated down the 100000 rows), then the larger of that and the zero word. -/
theorem reference_entry (a : Vec Ideal S100000x64 .f32) (b : Vec Ideal S64 .f32) (r : Fin 100000) (q : Fin 64) :
    Cert.RefSpec.biasRelu (F := Ideal) a b (ix2 r q) = max (a (ix2 r q) + b (ix1 q)) (Ideal.ofBits .f32 0x00000000#32) := by
  unfold Cert.RefSpec.biasRelu
  rw [maximumf_apply, addf_apply]
  have hrow : broadcastInDim Cert.ReferenceIdeal.S100000x64 ![0, 1] Cert.ReferenceIdeal.Gen.bcast_S1x64_S100000x64_0_1
      (broadcastInDim Cert.ReferenceIdeal.S1x64 ![1] Cert.ReferenceIdeal.Gen.bcast_S64_S1x64_1 b) (ix2 r q) = b (ix1 q) := by
    refine (broadcastInDim_apply _ _ _ (ix2 r q) (ix2 (0 : Fin 1) q) fun d => ?_).trans
      (broadcastInDim_apply _ _ b (ix2 (0 : Fin 1) q) (ix1 q) fun d => ?_)
    · match d with
      | ⟨0, _⟩ => rfl
      | ⟨1, _⟩ => rfl
    · match d with
      | ⟨0, _⟩ => rfl
  rw [hrow]
  rfl

/-- The bias window's one row is the bias vector: entry (0, q) of the vector laid as a [1, 64] row is the vector's entry q. -/
theorem bias_row_entry (row : Vec Ideal S1x64 .f32) (b : Vec Ideal S64 .f32) (hb : row = shapeCast _ b shapeCasts_S64_S1x64)
    (y : S1x64.Idx) (q : Fin 64) (hy : (y 1).val = q.val) : row y = b (ix1 q) := by
  obtain ⟨u, q', rfl⟩ : ∃ (u : Fin 1) (q' : Fin 64), y = ix2 u q' := ⟨y 0, y 1, eq_ix2 y⟩
  obtain rfl : q' = q := Fin.ext hy
  rw [hb]
  exact shapeCast_a_1a_apply b _ u q'

/-- The stored block's entry is the reference's stage at the array index it is written to, when the block holds the array's
    entries there, the row is the bias vector and the two indices share their column. -/
theorem entry_eq (a : Vec Ideal S100000x64 .f32) (b : Vec Ideal S64 .f32) (x : Vec Ideal S10000x64 .f32) (row : Vec Ideal S1x64 .f32)
    (j : S10000x64.Idx) (i : S100000x64.Idx) (hx : x j = a i) (hrow : row (ix2 (0 : Fin 1) (j 1)) = b (ix1 (j 1)))
    (hi : (i 1).val = (j 1).val) : k1_pay1 x row j = Cert.RefSpec.biasRelu (F := Ideal) a b i := by
  obtain ⟨p, q, rfl⟩ : ∃ (p : Fin 10000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext hi
  rw [stored_entry, reference_entry, hx, show row (ix2 (0 : Fin 1) q') = b (ix1 q') from hrow]

/-! ## From the blocks to the array -/

/-- The printed index maps over the ten grid points: the input block moves with the output block down the rows, the bias row
    stays at block (0, 0), no window moves along the columns, and the output's block number is at most 9. -/
theorem block_indices : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every one of the ten row blocks is some point's output block. -/
theorem block_onto : ∀ k : Fin 10, ∃ t : Fin cfg1.N, win1_2.index t = ![k.val, 0] :=
  (by decide +kernel : ∀ k : Fin 10, ∃ t : Fin grid1.N, win1_2.index t = ![k.val, 0])

/-- What point `t` writes back is block `t` of the reference's stage of the region's entry arrays. -/
theorem written_block (c : Dev nD) (b1 : Vec Ideal S64 .f32) (hb : V c main_v51 = shapeCast _ b1 shapeCasts_S64_S1x64)
    (t : Fin cfg1.N) :
    (dat1 (F := Ideal) V c).flushed 2 t
      = ((cfg1.win 2).blk t).view.read (Elt Ideal) (Cert.RefSpec.biasRelu (F := Ideal) (V c main_v50) b1) := by
  show (cfg1.win 2).cut (grid1.coords t) ((dat1 (F := Ideal) V c).after 2 t) = _
  rw [after1_2]
  unfold out1_2
  rw [View.canon_unit_zero zero_offsets]
  simp only [View.ld_unit_zero (S := S10000x64) zero_offsets, View.ld_unit_zero (S := S1x64) zero_offsets]
  obtain ⟨e0, e1, e2, e3, e4, e5⟩ := block_indices t
  funext j
  have hj0 : (j 0).val < 10000 := (j 0).isLt
  have hj1 : (j 1).val < 64 := (j 1).isLt
  show k1_pay1 (iblk1 V c 0 t) (iblk1 V c 1 t) ((cfg1.win 2).xinj (grid1.coords t) j)
      = Cert.RefSpec.biasRelu (F := Ideal) (V c main_v50) b1 (((cfg1.win 2).blk t).view.emb j)
  refine entry_eq (V c main_v50) b1 _ _ _ _ ?_ ?_ ?_
  · show V c main_v50 (((cfg1.win 0).blk t).view.emb j) = V c main_v50 (((cfg1.win 2).blk t).view.emb j)
    refine congrArg _ (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  · refine bias_row_entry _ b1 hb _ _ ?_
    show win1_1.index t (1 : Fin 2) * 64 + 1 * (j 1).val = (j 1).val
    omega
  · show win1_2.index t (1 : Fin 2) * 64 + 1 * (j 1).val = (j 1).val
    omega

/-- An index of the array is in point `t`'s output block iff each coordinate is in the block's range on its axis. -/
theorem mem_block (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v52).slice (win1_2.rect t)).set ↔ _
  rw [View.set_slice_whole, Rect.mem_set_unit]
  exact Iff.rfl

/-- Row r of the array lies in the output block of the point whose block number is r / 10000: the ten blocks tile the array. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := block_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the region, its output array is the reference's bias-and-positive-part stage of the region's entry arrays, the bias
    window holding the bias vector laid as one row. -/
theorem final (c : Dev nD) (b1 : Vec Ideal S64 .f32)
    (hb : V c main_v51 = shapeCast _ b1 shapeCasts_S64_S1x64) :
    (dat1 (F := Ideal) V c).arrAt 2 cfg1.N = Cert.RefSpec.biasRelu (F := Ideal) (V c main_v50) b1 :=
  (dat1 (F := Ideal) V c).arrAt_eq_of_cover 2 (Cert.RefSpec.biasRelu (F := Ideal) (V c main_v50) b1)
    (fun t _ => written_block V c b1 hb t) covered

end Cert.KernelIdeal.Region1

end
-- ==== Proof.Region2.lean ====
/-
  The third kernel region's result array: every block multiplies its 10000 rows into the second weight matrix; the ten blocks
  tile the array. Over the extended reals this is the reference's second projection.
-/
import proofs.«415075_j67637144977437_2_alg».proof.Proof.Gen.KernelIdeal.Frame
import proofs.«415075_j67637144977437_2_alg».proof.Proof.RefSpec
import proofs.«415075_j67637144977437_2_alg».proof.Proof.LibPlainMatmul
import Idealize.ShloMosaic.Lib.ValueIdx
import Idealize.ShloMosaic.Lib.Pipeline.Value

set_option maxRecDepth 16384

noncomputable section

namespace Cert.KernelIdeal.Region2

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The product, entry by entry -/

/-- The offsets of a whole-block access are zero on both axes. -/
theorem zeroOffsets : (![0, 0] : Fin 2 → Nat) = fun _ => 0 := funext fun a => by fin_cases a <;> rfl

/-- Entry (r, j) of the product of a [100000, 64] array by a [64, 16] matrix: the sum over k of x (r, k) * w (k, j). -/
def productEntry (x : Vec Ideal S100000x64 .f32) (w : Vec Ideal S64x16 .f32) (r : Fin 100000) (j : Fin 16) : Elt Ideal .f32 :=
  ∑ k : Fin 64, x (ix2 r k) * w (ix2 k j)

/-- The product as an array of 100000 rows and 16 columns. -/
def product (x : Vec Ideal S100000x64 .f32) (w : Vec Ideal S64x16 .f32) : Vec Ideal S100000x16 .f32 :=
  fun i => productEntry x w (i 0) (i 1)

/-! ## One block's product -/

/-- The body's dimension numbers are the plain ones: the left operand's axis 1 contracted with the right operand's axis 0. -/
theorem blockDims_eq : dot_S10000x64_S64x16_S10000x16_1_0_0_1_n_n = DotDims.plain 10000 64 16 := rfl

/-- Entry (p, q) of what the body stores: the narrowing of both operands is the identity over the extended reals, and the
    product into the zero accumulator is the sum over k of x0 (p, k) * x1 (k, q). -/
theorem payload_apply (x0 : Vec Ideal S10000x64 .f32) (x1 : Vec Ideal S64x16 .f32) (p : Fin 10000) (q : Fin 16) :
    k2_pay1 x0 x1 (ix2 p q) = ∑ k : Fin 64, x0 (ix2 p k) * x1 (ix2 k q) := by
  unfold k2_pay1
  rw [shapeCast_self, blockDims_eq]
  exact Cert.PlainMatmul.apply none _ _ p q

/-- The same at any index of the block, read by its two coordinates. -/
theorem payload_at (x0 : Vec Ideal S10000x64 .f32) (x1 : Vec Ideal S64x16 .f32) (y : S10000x16.Idx) :
    k2_pay1 x0 x1 y = ∑ k : Fin 64, x0 (ix2 (y 0) k) * x1 (ix2 k (y 1)) := by
  obtain ⟨p, q, rfl⟩ : ∃ (p : Fin 10000) (q : Fin 16), y = ix2 p q := ⟨y 0, y 1, eq_ix2 y⟩
  exact payload_apply x0 x1 p q

/-! ## Where each block sits in its array -/

/-- At point t the left operand's and the output's blocks are block row t (block column 0); the weight matrix's block is
    block (0, 0) at every point. Decided over the ten points. -/
theorem blockIndices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t holds rows 10000 t to 10000 t + 9999 of its array. -/
theorem lhsBlock_apply (c : Dev nD) (t : Fin cfg2.N) (x : S10000x64.Idx) (i : S100000x64.Idx)
    (h0 : (i 0).val = t.val * 10000 + (x 0).val) (h1 : (i 1).val = (x 1).val) :
    (iblk2 V c 0 t : Vec Ideal S10000x64 .f32) x = (V c main_v52 : S100000x64.Idx → Elt Ideal .f32) i := by
  obtain ⟨e0, e1, -⟩ := blockIndices t
  unfold iblk2
  rw [View.read_apply]
  show V c main_v52 _ = V c main_v52 _
  congr 1
  funext a
  apply Fin.ext
  match a with
  | ⟨0, _⟩ => show win2_0.index t (0 : Fin 2) * 10000 + 1 * (x 0).val = (i 0).val; rw [e0, h0]; omega
  | ⟨1, _⟩ => show win2_0.index t (1 : Fin 2) * 64 + 1 * (x 1).val = (i 1).val; rw [e1, h1]; omega

/-- The weight matrix's block at every point is the whole matrix. -/
theorem rhsBlock_apply (c : Dev nD) (t : Fin cfg2.N) (x i : S64x16.Idx)
    (h0 : (i 0).val = (x 0).val) (h1 : (i 1).val = (x 1).val) :
    (iblk2 V c 1 t : Vec Ideal S64x16 .f32) x = (V c main_arg7 : S64x16.Idx → Elt Ideal .f32) i := by
  obtain ⟨-, -, e2, e3, -⟩ := blockIndices t
  unfold iblk2
  rw [View.read_apply]
  show V c main_arg7 _ = V c main_arg7 _
  congr 1
  funext a
  apply Fin.ext
  match a with
  | ⟨0, _⟩ => show win2_1.index t (0 : Fin 2) * 64 + 1 * (x 0).val = (i 0).val; rw [e2, h0]; omega
  | ⟨1, _⟩ => show win2_1.index t (1 : Fin 2) * 16 + 1 * (x 1).val = (i 1).val; rw [e3, h1]; omega

/-! ## From the blocks to the array -/

/-- What point t writes back is block t of the product of the entry arrays: row p of the block is row 10000 t + p of the
    left operand times the whole weight matrix. -/
theorem flushed_eq_product (c : Dev nD) (t : Fin cfg2.N) :
    (dat2 (F := Ideal) V c).flushed 2 t
      = ((cfg2.win 2).blk t).view.read (Elt Ideal) (product (V c main_v52) (V c main_arg7)) := by
  show (cfg2.win 2).cut (grid2.coords t) ((dat2 V c).after 2 t) = _
  rw [after2_2]
  unfold out2_2
  rw [View.canon_unit_zero zeroOffsets]
  simp only [View.ld_unit_zero (S := S10000x64) zeroOffsets, View.ld_unit_zero (S := S64x16) zeroOffsets]
  obtain ⟨-, -, -, -, e4, e5⟩ := blockIndices t
  funext j
  refine (payload_at _ _ _).trans ?_
  show _ = productEntry (V c main_v52) (V c main_arg7) ((((cfg2.win 2).blk t).view.emb j) 0)
    ((((cfg2.win 2).blk t).view.emb j) 1)
  unfold productEntry
  refine Finset.sum_congr rfl fun k _ => ?_
  refine congrArg₂ (· * ·) (lhsBlock_apply V c t _ _ ?_ rfl) (rhsBlock_apply V c t _ _ rfl ?_)
  · show win2_2.index t (0 : Fin 2) * 10000 + 1 * (j 0).val = t.val * 10000 + (j 0).val
    rw [e4]; omega
  · show win2_2.index t (1 : Fin 2) * 16 + 1 * (j 1).val = (j 1).val
    rw [e5]; omega

/-- An index of the output array is in point t's block iff each coordinate is in the block's range on its axis. -/
theorem mem_block (t : Fin cfg2.N) (i : S100000x16.Idx) :
    i ∈ ((cfg2.win 2).blk t).view.set ↔ ∀ a : Fin 2, win2_2.index t a * S10000x16.size a ≤ (i a).val
      ∧ (i a).val < win2_2.index t a * S10000x16.size a + S10000x16.size a := by
  show i ∈ ((View.whole main_v53).slice (win2_2.rect t)).set ↔ _
  rw [View.set_slice_whole, Rect.mem_set_unit]
  exact Iff.rfl

/-- Row r of the output array is in the block of point r / 10000: the ten blocks tile the array. -/
theorem blocks_cover (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, e4, e5⟩ := blockIndices t
  refine ⟨t, flush2_2 t, ?_⟩
  rw [mem_block]
  intro a
  match a with
  | ⟨0, _⟩ =>
    show win2_2.index t (0 : Fin 2) * 10000 ≤ (i 0).val ∧ (i 0).val < win2_2.index t (0 : Fin 2) * 10000 + 10000
    rw [e4, ht]; omega
  | ⟨1, _⟩ =>
    show win2_2.index t (1 : Fin 2) * 16 ≤ (i 1).val ∧ (i 1).val < win2_2.index t (1 : Fin 2) * 16 + 16
    rw [e5]; omega

/-- After the region, its output array is the product of the region's entry arrays. -/
theorem arr_eq_product (c : Dev nD) :
    (dat2 (F := Ideal) V c).arrAt 2 cfg2.N = product (V c main_v52) (V c main_arg7) :=
  (dat2 V c).arrAt_eq_of_cover 2 (product (V c main_v52) (V c main_arg7)) (fun t _ => flushed_eq_product V c t) blocks_cover

/-! ## The reference's projection is the same product -/

/-- The reference's dimension numbers are the plain ones too. -/
theorem refDims_eq :
    Cert.ReferenceIdeal.dot_S100000x64_S64x16_S100000x16_1_0_0_1_n_n = DotDims.plain 100000 64 16 := rfl

/-- Entry (r, j) of the reference's contraction is the sum over k of x (r, k) * w (k, j): the sum over the one-axis
    contraction index re-indexed by k, the left operand read at the output's row and k, the right one at k and the
    output's column. -/
theorem proj2_eq_product (x : Vec Ideal S100000x64 .f32) (w : Vec Ideal S64x16 .f32) :
    Cert.RefSpec.proj2 (F := Ideal) x w = product x w := by
  funext i
  obtain ⟨r, j, rfl⟩ : ∃ (r : Fin 100000) (j : Fin 16), i = ix2 r j := ⟨i 0, i 1, eq_ix2 i⟩
  unfold Cert.RefSpec.proj2
  rw [refDims_eq]
  show FloatOps.dotGeneral (F := Ideal) (DotDims.plain 100000 64 16) none _ x w (ix2 r j)
    = ∑ k : Fin 64, x (ix2 r k) * w (ix2 k j)
  rw [Ideal.dotGeneral_apply, ← Equiv.sum_comp (contrEquiv1 (DotDims.plain 100000 64 16) 64 rfl rfl).symm]
  refine Finset.sum_congr rfl fun k _ => ?_
  have hk := contrEquiv1_symm_val (DotDims.plain 100000 64 16) 64 rfl rfl k
  have el : (DotDims.plain 100000 64 16).lhsIdx (ix2 r j) ((contrEquiv1 (DotDims.plain 100000 64 16) 64 rfl rfl).symm k)
      = ix2 r k :=
    funext fun a => Fin.ext (by
      match a with
      | ⟨0, _⟩ => exact Cert.PlainMatmul.lhs_row _ _
      | ⟨1, _⟩ => exact (Cert.PlainMatmul.lhs_col _ _).trans hk)
  have er : (DotDims.plain 100000 64 16).rhsIdx (ix2 r j) ((contrEquiv1 (DotDims.plain 100000 64 16) 64 rfl rfl).symm k)
      = ix2 k j :=
    funext fun a => Fin.ext (by
      match a with
      | ⟨0, _⟩ => exact (Cert.PlainMatmul.rhs_row _ _).trans hk
      | ⟨1, _⟩ => exact Cert.PlainMatmul.rhs_col _ _)
  rw [el, er]

/-- After the region, its output array is the reference's second projection of the region's entry arrays. -/
theorem final (c : Dev nD) :
    (dat2 (F := Ideal) V c).arrAt 2 cfg2.N = Cert.RefSpec.proj2 (F := Ideal) (V c main_v52) (V c main_arg7) :=
  (arr_eq_product V c).trans (proj2_eq_product _ _).symm

end Cert.KernelIdeal.Region2

end
-- ==== Proof.Region3.lean ====
/-
  The fourth kernel region's result array: every block adds the bias row to its 10000 rows; the ten blocks tile the array. This
  is the reference's last bias stage.
-/
import proofs.«415075_j67637144977437_2_alg».proof.Proof.Gen.KernelIdeal.Frame
import proofs.«415075_j67637144977437_2_alg».proof.Proof.RefSpec
import Idealize.ShloMosaic.Lib.ValueIdx
import Idealize.ShloMosaic.Lib.ValueLayout
import Idealize.ShloMosaic.Lib.Pipeline.Value

set_option maxRecDepth 16384

noncomputable section

namespace Cert.KernelIdeal.Region3

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- A whole-block access starts at offset zero on both axes. -/
theorem zero_offsets : (![0, 0] : Fin 2 → Nat) = fun _ => 0 :=
  funext fun a => match a with | ⟨0, _⟩ => rfl | ⟨1, _⟩ => rfl

/-! ## One entry of the stored block, and one entry of the reference's stage -/

/-- Entry (p, q) of the block the body stores: the block's entry plus the bias row's entry of column q. -/
theorem stored_entry (x : Vec Ideal S10000x16 .f32) (row : Vec Ideal S1x16 .f32) (p : Fin 10000) (q : Fin 16) :
    k3_pay1 x row (ix2 p q) = x (ix2 p q) + row (ix2 (0 : Fin 1) q) := by
  unfold k3_pay1
  rw [addf_apply, shapeCast_self, shapeCast_self, broadcastTo_1b_ab_apply]

/-- Entry (r, q) of the reference's stage: the array's entry plus the bias vector's entry q (the vector laid as one row, the
    row repeated down the 100000 rows). -/
theorem reference_entry (a : Vec Ideal S100000x16 .f32) (b : Vec Ideal S16 .f32) (r : Fin 100000) (q : Fin 16) :
    Cert.RefSpec.biasAdd (F := Ideal) a b (ix2 r q) = a (ix2 r q) + b (ix1 q) := by
  unfold Cert.RefSpec.biasAdd
  rw [addf_apply]
  have hrow : broadcastInDim Cert.ReferenceIdeal.S100000x16 ![0, 1] Cert.ReferenceIdeal.Gen.bcast_S1x16_S100000x16_0_1
      (broadcastInDim Cert.ReferenceIdeal.S1x16 ![1] Cert.ReferenceIdeal.Gen.bcast_S16_S1x16_1 b) (ix2 r q) = b (ix1 q) := by
    refine (broadcastInDim_apply _ _ _ (ix2 r q) (ix2 (0 : Fin 1) q) fun d => ?_).trans
      (broadcastInDim_apply _ _ b (ix2 (0 : Fin 1) q) (ix1 q) fun d => ?_)
    · match d with
      | ⟨0, _⟩ => rfl
      | ⟨1, _⟩ => rfl
    · match d with
      | ⟨0, _⟩ => rfl
  rw [hrow]

/-- The bias window's one row is the bias vector: entry (0, q) of the vector laid as a [1, 16] row is the vector's entry q. -/
theorem bias_row_entry (row : Vec Ideal S1x16 .f32) (b : Vec Ideal S16 .f32) (hb : row = shapeCast _ b shapeCasts_S16_S1x16)
    (y : S1x16.Idx) (q : Fin 16) (hy : (y 1).val = q.val) : row y = b (ix1 q) := by
  obtain ⟨u, q', rfl⟩ : ∃ (u : Fin 1) (q' : Fin 16), y = ix2 u q' := ⟨y 0, y 1, eq_ix2 y⟩
  obtain rfl : q' = q := Fin.ext hy
  rw [hb]
  exact shapeCast_a_1a_apply b _ u q'

/-- The stored block's entry is the reference's stage at the array index it is written to, when the block holds the array's
    entries there, the row is the bias vector and the two indices share their column. -/
theorem entry_eq (a : Vec Ideal S100000x16 .f32) (b : Vec Ideal S16 .f32) (x : Vec Ideal S10000x16 .f32) (row : Vec Ideal S1x16 .f32)
    (j : S10000x16.Idx) (i : S100000x16.Idx) (hx : x j = a i) (hrow : row (ix2 (0 : Fin 1) (j 1)) = b (ix1 (j 1)))
    (hi : (i 1).val = (j 1).val) : k3_pay1 x row j = Cert.RefSpec.biasAdd (F := Ideal) a b i := by
  obtain ⟨p, q, rfl⟩ : ∃ (p : Fin 10000) (q : Fin 16), j = ix2 p q := ⟨j 0, j 1, eq_ix2 j⟩
  obtain ⟨r, q', rfl⟩ : ∃ (r : Fin 100000) (q' : Fin 16), i = ix2 r q' := ⟨i 0, i 1, eq_ix2 i⟩
  obtain rfl : q' = q := Fin.ext hi
  rw [stored_entry, reference_entry, hx, show row (ix2 (0 : Fin 1) q') = b (ix1 q') from hrow]

/-! ## From the blocks to the array -/

/-- The printed index maps over the ten grid points: the input block moves with the output block down the rows, the bias row
    stays at block (0, 0), no window moves along the columns, and the output's block number is at most 9. -/
theorem block_indices : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every one of the ten row blocks is some point's output block. -/
theorem block_onto : ∀ k : Fin 10, ∃ t : Fin cfg3.N, win3_2.index t = ![k.val, 0] :=
  (by decide +kernel : ∀ k : Fin 10, ∃ t : Fin grid3.N, win3_2.index t = ![k.val, 0])

/-- What point `t` writes back is block `t` of the reference's stage of the region's entry arrays. -/
theorem written_block (c : Dev nD) (b2 : Vec Ideal S16 .f32) (hb : V c main_v67 = shapeCast _ b2 shapeCasts_S16_S1x16)
    (t : Fin cfg3.N) :
    (dat3 (F := Ideal) V c).flushed 2 t
      = ((cfg3.win 2).blk t).view.read (Elt Ideal) (Cert.RefSpec.biasAdd (F := Ideal) (V c main_v66) b2) := by
  show (cfg3.win 2).cut (grid3.coords t) ((dat3 (F := Ideal) V c).after 2 t) = _
  rw [after3_2]
  unfold out3_2
  rw [View.canon_unit_zero zero_offsets]
  simp only [View.ld_unit_zero (S := S10000x16) zero_offsets, View.ld_unit_zero (S := S1x16) zero_offsets]
  obtain ⟨e0, e1, e2, e3, e4, e5⟩ := block_indices t
  funext j
  have hj0 : (j 0).val < 10000 := (j 0).isLt
  have hj1 : (j 1).val < 16 := (j 1).isLt
  show k3_pay1 (iblk3 V c 0 t) (iblk3 V c 1 t) ((cfg3.win 2).xinj (grid3.coords t) j)
      = Cert.RefSpec.biasAdd (F := Ideal) (V c main_v66) b2 (((cfg3.win 2).blk t).view.emb j)
  refine entry_eq (V c main_v66) b2 _ _ _ _ ?_ ?_ ?_
  · show V c main_v66 (((cfg3.win 0).blk t).view.emb j) = V c main_v66 (((cfg3.win 2).blk t).view.emb j)
    refine congrArg _ (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 16 + 1 * (j 1).val = win3_2.index t (1 : Fin 2) * 16 + 1 * (j 1).val; omega
  · refine bias_row_entry _ b2 hb _ _ ?_
    show win3_1.index t (1 : Fin 2) * 16 + 1 * (j 1).val = (j 1).val
    omega
  · show win3_2.index t (1 : Fin 2) * 16 + 1 * (j 1).val = (j 1).val
    omega

/-- An index of the array is in point `t`'s output block iff each coordinate is in the block's range on its axis. -/
theorem mem_block (t : Fin cfg3.N) (i : S100000x16.Idx) :
    i ∈ ((cfg3.win 2).blk t).view.set ↔ ∀ a : Fin 2, win3_2.index t a * S10000x16.size a ≤ (i a).val
      ∧ (i a).val < win3_2.index t a * S10000x16.size a + S10000x16.size a := by
  show i ∈ ((View.whole main_v68).slice (win3_2.rect t)).set ↔ _
  rw [View.set_slice_whole, Rect.mem_set_unit]
  exact Iff.rfl

/-- Row r of the array lies in the output block of the point whose block number is r / 10000: the ten blocks tile the array. -/
theorem covered (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  obtain ⟨t, ht⟩ := block_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 16 ≤ (i 1).val ∧ (i 1).val < win3_2.index t (1 : Fin 2) * 16 + 16; omega

/-- After the region, its output array is the reference's last bias stage of the region's entry arrays, the bias window holding
    the bias vector laid as one row. -/
theorem final (c : Dev nD) (b2 : Vec Ideal S16 .f32)
    (hb : V c main_v67 = shapeCast _ b2 shapeCasts_S16_S1x16) :
    (dat3 (F := Ideal) V c).arrAt 2 cfg3.N = Cert.RefSpec.biasAdd (F := Ideal) (V c main_v66) b2 :=
  (dat3 (F := Ideal) V c).arrAt_eq_of_cover 2 (Cert.RefSpec.biasAdd (F := Ideal) (V c main_v66) b2)
    (fun t _ => written_block V c b2 hb t) covered

end Cert.KernelIdeal.Region3

end
-- ==== Proof.KHostA.lean ====
/-
  What the host operations before the first kernel region and between the first and the second leave in the buffers the
  regions read: the arguments untouched, the two halves of the first weight matrix, the first round of message passing applied
  to the first region's result, the bias laid as a row, and the edge lists and normalisation the later round reuses.
-/
import proofs.«415075_j67637144977437_2_alg».proof.Proof.Gen.KernelIdeal.Frame
import proofs.«415075_j67637144977437_2_alg».proof.Proof.KSpec
import Idealize.ShloMosaic.Lib.StableHlo.Run
import Idealize.ShloMosaic.Lib.ValueIdx

set_option maxRecDepth 16384

noncomputable section

namespace Cert.KernelIdeal.KHostA

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- A buffer that no operation of a stretch writes holds after the stretch what it held before. -/
local macro "untouched_by " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Before the first region -/

/-- The class numbers reach the first region as launched. -/
theorem V1_arg0 (c : Dev nD) : V1 m ρ c main_arg0 = (m ((c : Thread nD τ).loc main_arg0)) := by
  show W1 m ρ c (Proc.devRef .tc main_arg0) = W0 m ρ c (Proc.devRef .tc main_arg0)
  untouched_by hostOps0
/-- The first class table reaches the first region as launched. -/
theorem V1_arg3 (c : Dev nD) : V1 m ρ c main_arg3 = (m ((c : Thread nD τ).loc main_arg3)) := by
  show W1 m ρ c (Proc.devRef .tc main_arg3) = W0 m ρ c (Proc.devRef .tc main_arg3)
  untouched_by hostOps0
/-- The second class table reaches the first region as launched. -/
theorem V1_arg4 (c : Dev nD) : V1 m ρ c main_arg4 = (m ((c : Thread nD τ).loc main_arg4)) := by
  show W1 m ρ c (Proc.devRef .tc main_arg4) = W0 m ρ c (Proc.devRef .tc main_arg4)
  untouched_by hostOps0
/-- The first region's fourth window holds rows 0–15 of the first weight matrix. -/
theorem V1_v4 (c : Dev nD) :
    V1 m ρ c main_v4 = extractStridedSlice S16x64 ![0, 0] (m ((c : Thread nD τ).loc main_arg5)) slices_S32x64_S16x64_0_0 := by
  show StableHlo.after hostOps0 (W0 m ρ c) (Proc.devRef .tc main_v4) = _
  after_results
/-- The first region's fifth window holds rows 16–31 of the first weight matrix. -/
theorem V1_v5 (c : Dev nD) :
    V1 m ρ c main_v5 = extractStridedSlice S16x64 ![16, 0] (m ((c : Thread nD τ).loc main_arg5)) slices_S32x64_S16x64_16_0 := by
  show StableHlo.after hostOps0 (W0 m ρ c) (Proc.devRef .tc main_v5) = _
  after_results

/-- The source row of the edge list, flattened, as the first stretch leaves it. -/
theorem W1_v1 (c : Dev nD) :
    W1 m ρ c (Proc.devRef .tc main_v1)
      = shapeCast _ (extractStridedSlice S1x3200000 ![0, 0] (m ((c : Thread nD τ).loc main_arg1)) slices_S2x3200000_S1x3200000_0_0) shapeCasts_S1x3200000_S3200000 := by
  show StableHlo.after hostOps0 (W0 m ρ c) (Proc.devRef .tc main_v1) = _
  after_results
  rfl
/-- The destination row of the edge list, flattened, as the first stretch leaves it. -/
theorem W1_v3 (c : Dev nD) :
    W1 m ρ c (Proc.devRef .tc main_v3)
      = shapeCast _ (extractStridedSlice S1x3200000 ![1, 0] (m ((c : Thread nD τ).loc main_arg1)) slices_S2x3200000_S1x3200000_1_0) shapeCasts_S1x3200000_S3200000 := by
  show StableHlo.after hostOps0 (W0 m ρ c) (Proc.devRef .tc main_v3) = _
  after_results
  rfl

/-! ## Across the first region: only its own arrays change -/

theorem W2_v1 (c : Dev nD) :
    W2 m ρ c (Proc.devRef .tc main_v1)
      = shapeCast _ (extractStridedSlice S1x3200000 ![0, 0] (m ((c : Thread nD τ).loc main_arg1)) slices_S2x3200000_S1x3200000_0_0) shapeCasts_S1x3200000_S3200000 :=
  (W2_of_ne m ρ c main_v1 (by decide)).trans (W1_v1 m ρ c)
theorem W2_v3 (c : Dev nD) :
    W2 m ρ c (Proc.devRef .tc main_v3)
      = shapeCast _ (extractStridedSlice S1x3200000 ![1, 0] (m ((c : Thread nD τ).loc main_arg1)) slices_S2x3200000_S1x3200000_1_0) shapeCasts_S1x3200000_S3200000 :=
  (W2_of_ne m ρ c main_v3 (by decide)).trans (W1_v3 m ρ c)
/-- The edge weights are as launched. -/
theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := by untouched_by hostOps0
    _ = m ((c : Thread nD τ).loc main_arg2) := rfl
/-- The first bias vector is as launched. -/
theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by untouched_by hostOps0
    _ = m ((c : Thread nD τ).loc main_arg6) := rfl

/-! ## The first stretch after the first region: edge lists, weights, degrees -/

theorem W3_v8 (c : Dev nD) :
    W3 m ρ c (Proc.devRef .tc main_v8) = Cert.KSpec.srcAll (F := Ideal) (m ((c : Thread nD τ).loc main_arg1)) := by
  have h1 := W2_v1 m ρ c
  show StableHlo.after hostOps1 (W2 m ρ c) (Proc.devRef .tc main_v8) = _
  generalize W2 m ρ c = V at h1 ⊢
  after_results
  rw [h1]
  rfl
theorem W3_v9 (c : Dev nD) :
    W3 m ρ c (Proc.devRef .tc main_v9) = Cert.KSpec.dstAll (F := Ideal) (m ((c : Thread nD τ).loc main_arg1)) := by
  have h3 := W2_v3 m ρ c
  show StableHlo.after hostOps1 (W2 m ρ c) (Proc.devRef .tc main_v9) = _
  generalize W2 m ρ c = V at h3 ⊢
  after_results
  rw [h3]
  rfl
theorem W3_v11 (c : Dev nD) :
    W3 m ρ c (Proc.devRef .tc main_v11) = Cert.KSpec.ewAll (F := Ideal) (m ((c : Thread nD τ).loc main_arg2)) := by
  have h2 := W2_arg2 m ρ c
  show StableHlo.after hostOps1 (W2 m ρ c) (Proc.devRef .tc main_v11) = _
  generalize W2 m ρ c = V at h2 ⊢
  after_results
  rw [h2]
  rfl
theorem W3_v14 (c : Dev nD) :
    W3 m ρ c (Proc.devRef .tc main_v14)
      = Cert.KSpec.deg (F := Ideal) (m ((c : Thread nD τ).loc main_arg1)) (m ((c : Thread nD τ).loc main_arg2)) := by
  have h2 := W2_arg2 m ρ c
  have h3 := W2_v3 m ρ c
  show StableHlo.after hostOps1 (W2 m ρ c) (Proc.devRef .tc main_v14) = _
  generalize W2 m ρ c = V at h2 h3 ⊢
  after_results
  rw [h2, h3]
  rfl
theorem W3_v16 (c : Dev nD) :
    W3 m ρ c (Proc.devRef .tc main_v16)
      = cmpf .ogt (Cert.KSpec.deg (F := Ideal) (m ((c : Thread nD τ).loc main_arg1)) (m ((c : Thread nD τ).loc main_arg2)))
          (broadcastInDim S100000 ![] bcast_S_S100000 (constant (F := Ideal) S_ .f32 0x00000000#32)) := by
  have h2 := W2_arg2 m ρ c
  have h3 := W2_v3 m ρ c
  show StableHlo.after hostOps1 (W2 m ρ c) (Proc.devRef .tc main_v16) = _
  generalize W2 m ρ c = V at h2 h3 ⊢
  after_results
  rw [h2, h3]
  rfl
theorem W3_v18 (c : Dev nD) :
    W3 m ρ c (Proc.devRef .tc main_v18)
      = cmpf .ogt (Cert.KSpec.deg (F := Ideal) (m ((c : Thread nD τ).loc main_arg1)) (m ((c : Thread nD τ).loc main_arg2)))
          (broadcastInDim S100000 ![] bcast_S_S100000 (constant (F := Ideal) S_ .f32 0x00000000#32)) := by
  have h2 := W2_arg2 m ρ c
  have h3 := W2_v3 m ρ c
  show StableHlo.after hostOps1 (W2 m ρ c) (Proc.devRef .tc main_v18) = _
  generalize W2 m ρ c = V at h2 h3 ⊢
  after_results
  rw [h2, h3]
  rfl
theorem W3_cst_3 (c : Dev nD) :
    W3 m ρ c (Proc.devRef .tc main_cst_3) = constant (F := Ideal) S_ .f32 0x3F800000#32 := by
  show StableHlo.after hostOps1 (W2 m ρ c) (Proc.devRef .tc main_cst_3) = _
  generalize W2 m ρ c = V
  after_results

/-! ## The guarded inverse square root of the degrees -/

/-- The degrees with one put where the degree is not positive. -/
theorem W4_v19 (c : Dev nD) :
    W4 m ρ c (Proc.devRef .tc main_v19)
      = select (cmpf .ogt (Cert.KSpec.deg (F := Ideal) (m ((c : Thread nD τ).loc main_arg1)) (m ((c : Thread nD τ).loc main_arg2))) (broadcastInDim S100000 ![] bcast_S_S100000 (constant (F := Ideal) S_ .f32 0x00000000#32))) (Cert.KSpec.deg (F := Ideal) (m ((c : Thread nD τ).loc main_arg1)) (m ((c : Thread nD τ).loc main_arg2)))
          (broadcastInDim S100000 ![] bcast_S_S100000 (id (constant (F := Ideal) S_ .f32 0x3F800000#32))) := by
  have h18 := W3_v18 m ρ c
  have h14 := W3_v14 m ρ c
  have h3 := W3_cst_3 m ρ c
  show StableHlo.after hostOps1_1 (W3 m ρ c) (Proc.devRef .tc main_v19) = _
  generalize W3 m ρ c = V at h18 h14 h3 ⊢
  after_results
  simp only [StableHlo.TRef.ofBuf, StableHlo.TRef.toBuf, cast_eq]
  rw [h18, h14, h3]
theorem W4_v16 (c : Dev nD) :
    W4 m ρ c (Proc.devRef .tc main_v16) = cmpf .ogt (Cert.KSpec.deg (F := Ideal) (m ((c : Thread nD τ).loc main_arg1)) (m ((c : Thread nD τ).loc main_arg2))) (broadcastInDim S100000 ![] bcast_S_S100000 (constant (F := Ideal) S_ .f32 0x00000000#32)) :=
  (show W4 m ρ c (Proc.devRef .tc main_v16) = W3 m ρ c (Proc.devRef .tc main_v16) by untouched_by hostOps1_1).trans
    (W3_v16 m ρ c)

theorem W5_v20 (c : Dev nD) :
    W5 m ρ c (Proc.devRef .tc main_v20)
      = Host.rsqrt (select (cmpf .ogt (Cert.KSpec.deg (F := Ideal) (m ((c : Thread nD τ).loc main_arg1)) (m ((c : Thread nD τ).loc main_arg2))) (broadcastInDim S100000 ![] bcast_S_S100000 (constant (F := Ideal) S_ .f32 0x00000000#32))) (Cert.KSpec.deg (F := Ideal) (m ((c : Thread nD τ).loc main_arg1)) (m ((c : Thread nD τ).loc main_arg2)))
          (broadcastInDim S100000 ![] bcast_S_S100000 (id (constant (F := Ideal) S_ .f32 0x3F800000#32)))) := by
  have h19 := W4_v19 m ρ c
  show StableHlo.after hostOps1_2 (W4 m ρ c) (Proc.devRef .tc main_v20) = _
  generalize W4 m ρ c = V at h19 ⊢
  after_results
  rw [h19]
theorem W5_cst_4 (c : Dev nD) :
    W5 m ρ c (Proc.devRef .tc main_cst_4) = constant (F := Ideal) S_ .f32 0x00000000#32 := by
  show StableHlo.after hostOps1_2 (W4 m ρ c) (Proc.devRef .tc main_cst_4) = _
  generalize W4 m ρ c = V
  after_results
theorem W5_v16 (c : Dev nD) :
    W5 m ρ c (Proc.devRef .tc main_v16) = cmpf .ogt (Cert.KSpec.deg (F := Ideal) (m ((c : Thread nD τ).loc main_arg1)) (m ((c : Thread nD τ).loc main_arg2))) (broadcastInDim S100000 ![] bcast_S_S100000 (constant (F := Ideal) S_ .f32 0x00000000#32)) :=
  (show W5 m ρ c (Proc.devRef .tc main_v16) = W4 m ρ c (Proc.devRef .tc main_v16) by untouched_by hostOps1_2).trans
    (W4_v16 m ρ c)

/-- The inverse square root of every positive degree, zero elsewhere. -/
theorem W6_v21 (c : Dev nD) :
    W6 m ρ c (Proc.devRef .tc main_v21) = Cert.KSpec.dinv (F := Ideal) (m ((c : Thread nD τ).loc main_arg1)) (m ((c : Thread nD τ).loc main_arg2)) := by
  have h16 := W5_v16 m ρ c
  have h20 := W5_v20 m ρ c
  have h4 := W5_cst_4 m ρ c
  show StableHlo.after hostOps1_3 (W5 m ρ c) (Proc.devRef .tc main_v21) = _
  generalize W5 m ρ c = V at h16 h20 h4 ⊢
  after_results
  simp only [StableHlo.TRef.ofBuf, StableHlo.TRef.toBuf, cast_eq]
  rw [h16, h20, h4]
  rfl

/-! ## What the last stretch before the second region reads, carried across the stretches that do not write it -/

theorem W6_v8 (c : Dev nD) : W6 m ρ c (Proc.devRef .tc main_v8) = Cert.KSpec.srcAll (F := Ideal) (m ((c : Thread nD τ).loc main_arg1)) :=
  calc W6 m ρ c (Proc.devRef .tc main_v8)
    _ = W5 m ρ c (Proc.devRef .tc main_v8) := by untouched_by hostOps1_3
    _ = W4 m ρ c (Proc.devRef .tc main_v8) := by untouched_by hostOps1_2
    _ = W3 m ρ c (Proc.devRef .tc main_v8) := by untouched_by hostOps1_1
    _ = Cert.KSpec.srcAll (F := Ideal) (m ((c : Thread nD τ).loc main_arg1)) := W3_v8 m ρ c

theorem W6_v9 (c : Dev nD) : W6 m ρ c (Proc.devRef .tc main_v9) = Cert.KSpec.dstAll (F := Ideal) (m ((c : Thread nD τ).loc main_arg1)) :=
  calc W6 m ρ c (Proc.devRef .tc main_v9)
    _ = W5 m ρ c (Proc.devRef .tc main_v9) := by untouched_by hostOps1_3
    _ = W4 m ρ c (Proc.devRef .tc main_v9) := by untouched_by hostOps1_2
    _ = W3 m ρ c (Proc.devRef .tc main_v9) := by untouched_by hostOps1_1
    _ = Cert.KSpec.dstAll (F := Ideal) (m ((c : Thread nD τ).loc main_arg1)) := W3_v9 m ρ c

theorem W6_v11 (c : Dev nD) : W6 m ρ c (Proc.devRef .tc main_v11) = Cert.KSpec.ewAll (F := Ideal) (m ((c : Thread nD τ).loc main_arg2)) :=
  calc W6 m ρ c (Proc.devRef .tc main_v11)
    _ = W5 m ρ c (Proc.devRef .tc main_v11) := by untouched_by hostOps1_3
    _ = W4 m ρ c (Proc.devRef .tc main_v11) := by untouched_by hostOps1_2
    _ = W3 m ρ c (Proc.devRef .tc main_v11) := by untouched_by hostOps1_1
    _ = Cert.KSpec.ewAll (F := Ideal) (m ((c : Thread nD τ).loc main_arg2)) := W3_v11 m ρ c
/-- The first region's result stays as that region left it. -/
theorem W6_v6 (c : Dev nD) : W6 m ρ c (Proc.devRef .tc main_v6) = V2 m ρ c main_v6 :=
  calc W6 m ρ c (Proc.devRef .tc main_v6)
    _ = W5 m ρ c (Proc.devRef .tc main_v6) := by untouched_by hostOps1_3
    _ = W4 m ρ c (Proc.devRef .tc main_v6) := by untouched_by hostOps1_2
    _ = W3 m ρ c (Proc.devRef .tc main_v6) := by untouched_by hostOps1_1
    _ = W2 m ρ c (Proc.devRef .tc main_v6) := by untouched_by hostOps1
theorem W6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := by untouched_by hostOps1_3
    _ = W4 m ρ c (Proc.devRef .tc main_arg6) := by untouched_by hostOps1_2
    _ = W3 m ρ c (Proc.devRef .tc main_arg6) := by untouched_by hostOps1_1
    _ = W2 m ρ c (Proc.devRef .tc main_arg6) := by untouched_by hostOps1
    _ = m ((c : Thread nD τ).loc main_arg6) := W2_arg6 m ρ c

/-! ## The last stretch before the second region -/

/-- At the second region's entry the source list (with self loops) is in place. -/
theorem W7_v8 (c : Dev nD) : W7 m ρ c (Proc.devRef .tc main_v8) = Cert.KSpec.srcAll (F := Ideal) (m ((c : Thread nD τ).loc main_arg1)) :=
  (show W7 m ρ c (Proc.devRef .tc main_v8) = W6 m ρ c (Proc.devRef .tc main_v8) by untouched_by hostOps1_4).trans
    (W6_v8 m ρ c)
/-- At the second region's entry the destination list (with self loops) is in place. -/
theorem W7_v9 (c : Dev nD) : W7 m ρ c (Proc.devRef .tc main_v9) = Cert.KSpec.dstAll (F := Ideal) (m ((c : Thread nD τ).loc main_arg1)) :=
  (show W7 m ρ c (Proc.devRef .tc main_v9) = W6 m ρ c (Proc.devRef .tc main_v9) by untouched_by hostOps1_4).trans
    (W6_v9 m ρ c)
/-- The second region's bias window holds the first bias vector laid as one row. -/
theorem V7_v51 (c : Dev nD) : V7 m ρ c main_v51 = shapeCast _ (m ((c : Thread nD τ).loc main_arg6)) shapeCasts_S64_S1x64 := by
  have h6 := W6_arg6 m ρ c
  show StableHlo.after hostOps1_4 (W6 m ρ c) (Proc.devRef .tc main_v51) = _
  generalize W6 m ρ c = V at h6 ⊢
  after_results
  rw [h6]
  rfl

/-- At the second region's entry the per-edge normalisation is in place. -/
theorem W7_v37 (c : Dev nD) :
    W7 m ρ c (Proc.devRef .tc main_v37) = Cert.KSpec.norm (F := Ideal) (m ((c : Thread nD τ).loc main_arg1)) (m ((c : Thread nD τ).loc main_arg2)) := by
  have h8 := W6_v8 m ρ c
  have h9 := W6_v9 m ρ c
  have h11 := W6_v11 m ρ c
  have h21 := W6_v21 m ρ c
  show StableHlo.after hostOps1_4 (W6 m ρ c) (Proc.devRef .tc main_v37) = _
  generalize W6 m ρ c = V at h8 h9 h11 h21 ⊢
  after_results_simp
  rw [h8, h9, h11, h21]
  rfl
/-- The second region's input is one round of message passing over the first region's result. -/
theorem V7_v50 (c : Dev nD) :
    V7 m ρ c main_v50 = Cert.KSpec.agg64 (F := Ideal) (V2 m ρ c main_v6) (m ((c : Thread nD τ).loc main_arg1)) (m ((c : Thread nD τ).loc main_arg2)) := by
  have h6 := W6_v6 m ρ c
  have h8 := W6_v8 m ρ c
  have h9 := W6_v9 m ρ c
  have h11 := W6_v11 m ρ c
  have h21 := W6_v21 m ρ c
  show StableHlo.after hostOps1_4 (W6 m ρ c) (Proc.devRef .tc main_v50) = _
  generalize W6 m ρ c = V at h6 h8 h9 h11 h21 ⊢
  after_results_simp
  rw [h6, h8, h9, h11, h21]
  rfl

end Cert.KernelIdeal.KHostA

end
-- ==== Proof.KHostB.lean ====
/-
  What the later host operations leave in the buffers the third and fourth kernel regions read: the second weight matrix
  untouched, the second round of message passing (over the edge lists and normalisation computed before the second region, which
  no region in between overwrites) applied to the third region's result, and the last bias laid as a row.
-/
import proofs.«415075_j67637144977437_2_alg».proof.Proof.Gen.KernelIdeal.Frame
import proofs.«415075_j67637144977437_2_alg».proof.Proof.KSpec
import proofs.«415075_j67637144977437_2_alg».proof.Proof.KHostA
import Idealize.ShloMosaic.Lib.StableHlo.Run
import Idealize.ShloMosaic.Lib.ValueIdx

set_option maxRecDepth 16384

noncomputable section

namespace Cert.KernelIdeal.KHostB

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- A stretch of host operations leaves a buffer alone when none of its operations writes it: the goal
    `after ops V b = V b` is reduced to one inequality of references per operation. -/
local macro "stretch_keeps" : tactic => `(tactic|
  (refine StableHlo.after_of_forall_not_mem _ _ (List.forall_iff_forall_mem.mp ?_)
   simp only [hostOps0, hostOps1, hostOps1_1, hostOps1_2, hostOps1_3, hostOps1_4, hostOps3, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-- The second weight matrix at the second region's entry is the launched one: no host operation so far and not the
    first region writes it. -/
theorem W7_arg7 (c : Dev nD) : W7 m ρ c (Proc.devRef .tc main_arg7) = m ((c : Thread nD τ).loc main_arg7) :=
  calc W7 m ρ c (Proc.devRef .tc main_arg7)
    _ = W6 m ρ c (Proc.devRef .tc main_arg7) := by stretch_keeps
    _ = W5 m ρ c (Proc.devRef .tc main_arg7) := by stretch_keeps
    _ = W4 m ρ c (Proc.devRef .tc main_arg7) := by stretch_keeps
    _ = W3 m ρ c (Proc.devRef .tc main_arg7) := by stretch_keeps
    _ = W2 m ρ c (Proc.devRef .tc main_arg7) := by stretch_keeps
    _ = W1 m ρ c (Proc.devRef .tc main_arg7) := W2_of_ne m ρ c main_arg7 (by decide)
    _ = W0 m ρ c (Proc.devRef .tc main_arg7) := by stretch_keeps
    _ = m ((c : Thread nD τ).loc main_arg7) := rfl

/-- The last bias vector at the second region's entry is the launched one. -/
theorem W7_arg8 (c : Dev nD) : W7 m ρ c (Proc.devRef .tc main_arg8) = m ((c : Thread nD τ).loc main_arg8) :=
  calc W7 m ρ c (Proc.devRef .tc main_arg8)
    _ = W6 m ρ c (Proc.devRef .tc main_arg8) := by stretch_keeps
    _ = W5 m ρ c (Proc.devRef .tc main_arg8) := by stretch_keeps
    _ = W4 m ρ c (Proc.devRef .tc main_arg8) := by stretch_keeps
    _ = W3 m ρ c (Proc.devRef .tc main_arg8) := by stretch_keeps
    _ = W2 m ρ c (Proc.devRef .tc main_arg8) := by stretch_keeps
    _ = W1 m ρ c (Proc.devRef .tc main_arg8) := W2_of_ne m ρ c main_arg8 (by decide)
    _ = W0 m ρ c (Proc.devRef .tc main_arg8) := by stretch_keeps
    _ = m ((c : Thread nD τ).loc main_arg8) := rfl

/-- The second weight matrix reaches the third region as launched. -/
theorem V8_arg7 (c : Dev nD) : V8 m ρ c main_arg7 = (m ((c : Thread nD τ).loc main_arg7)) :=
  (W8_of_ne m ρ c main_arg7 (by decide)).trans (W7_arg7 m ρ c)

/-- The second and third regions write none of the source list, the destination list and the normalisation, so after
    the third region each is what the second region's entry held. -/
theorem W9_v8 (c : Dev nD) :
    W9 m ρ c (Proc.devRef .tc main_v8) = Cert.KSpec.srcAll (F := Ideal) (m ((c : Thread nD τ).loc main_arg1)) :=
  (W9_of_ne m ρ c main_v8 (by decide)).trans ((W8_of_ne m ρ c main_v8 (by decide)).trans (KHostA.W7_v8 m ρ c))
theorem W9_v9 (c : Dev nD) :
    W9 m ρ c (Proc.devRef .tc main_v9) = Cert.KSpec.dstAll (F := Ideal) (m ((c : Thread nD τ).loc main_arg1)) :=
  (W9_of_ne m ρ c main_v9 (by decide)).trans ((W8_of_ne m ρ c main_v9 (by decide)).trans (KHostA.W7_v9 m ρ c))
theorem W9_v37 (c : Dev nD) :
    W9 m ρ c (Proc.devRef .tc main_v37) =
      Cert.KSpec.norm (F := Ideal) (m ((c : Thread nD τ).loc main_arg1)) (m ((c : Thread nD τ).loc main_arg2)) :=
  (W9_of_ne m ρ c main_v37 (by decide)).trans ((W8_of_ne m ρ c main_v37 (by decide)).trans (KHostA.W7_v37 m ρ c))
/-- The last bias vector after the third region is the launched one. -/
theorem W9_arg8 (c : Dev nD) : W9 m ρ c (Proc.devRef .tc main_arg8) = m ((c : Thread nD τ).loc main_arg8) :=
  (W9_of_ne m ρ c main_arg8 (by decide)).trans ((W8_of_ne m ρ c main_arg8 (by decide)).trans (W7_arg8 m ρ c))

/-- The fourth region's input is one round of message passing over the third region's result. -/
theorem V10_v66 (c : Dev nD) :
    V10 m ρ c main_v66 = Cert.KSpec.agg16 (F := Ideal) (V9 m ρ c main_v53) (m ((c : Thread nD τ).loc main_arg1)) (m ((c : Thread nD τ).loc main_arg2)) := by
  show StableHlo.after hostOps3 (W9 m ρ c) (Proc.devRef .tc main_v66) = _
  after_results_simp
  rw [W9_v8 m ρ c, W9_v9 m ρ c, W9_v37 m ρ c]
  rfl
/-- The fourth region's bias window holds the last bias vector laid as one row. -/
theorem V10_v67 (c : Dev nD) : V10 m ρ c main_v67 = shapeCast _ (m ((c : Thread nD τ).loc main_arg8)) shapeCasts_S16_S1x16 := by
  show StableHlo.after hostOps3 (W9 m ρ c) (Proc.devRef .tc main_v67) = _
  after_results
  rw [W9_arg8 m ρ c]
  rfl

end Cert.KernelIdeal.KHostB

end
-- ==== Proof.KValue.lean ====
/-
  The program with the kernels ends with the reference's network of its arguments. Walking the boundary contents from the
  launch: the first region leaves the embedding-and-projection stage; the host operations after it one round of message passing
  over that; the second region the bias and positive part; the third region the second projection; the host operations after
  it the second round of message passing; the last region the final bias. Each step is one of the stage lemmas, and the two
  spellings of the message-passing stages are the same functions.
-/
import proofs.«415075_j67637144977437_2_alg».proof.Proof.Gen.KernelIdeal.Frame
import proofs.«415075_j67637144977437_2_alg».proof.Proof.RefSpec
import proofs.«415075_j67637144977437_2_alg».proof.Proof.KSpec
import proofs.«415075_j67637144977437_2_alg».proof.Proof.Bridge
import proofs.«415075_j67637144977437_2_alg».proof.Proof.Region0
import proofs.«415075_j67637144977437_2_alg».proof.Proof.Region1
import proofs.«415075_j67637144977437_2_alg».proof.Proof.Region2
import proofs.«415075_j67637144977437_2_alg».proof.Proof.Region3
import proofs.«415075_j67637144977437_2_alg».proof.Proof.KHostA
import proofs.«415075_j67637144977437_2_alg».proof.Proof.KHostB
import Idealize.ShloMosaic.Lib.ValueIdx

set_option maxRecDepth 16384

noncomputable section

namespace Cert.KernelIdeal.KValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- On device `c`, with every class number inside its table, the last boundary's contents at the result buffer are the
    reference's network of the nine launched argument arrays. -/
theorem value (c : Dev nD)
    (hidx : ∀ p : Fin 100000, ((m ((c : Thread nD τ).loc main_arg0)) (ix2 p (0 : Fin 2))).toNat < 200
      ∧ ((m ((c : Thread nD τ).loc main_arg0)) (ix2 p (1 : Fin 2))).toNat < 100) :
    W11 m ρ c (Proc.devRef .tc main_v68)
      = Cert.RefSpec.total (F := Ideal) (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) := by
  -- the first region: the embedding lookup fused with the first projection
  have s0 : V2 m ρ c main_v6
      = Cert.RefSpec.embedProj (F := Ideal) (m ((c : Thread nD τ).loc main_arg0)) (m ((c : Thread nD τ).loc main_arg3)) (m ((c : Thread nD τ).loc main_arg4)) (m ((c : Thread nD τ).loc main_arg5)) := by
    have h := Region0.final (V1 m ρ) c (m ((c : Thread nD τ).loc main_arg5)) (KHostA.V1_v4 m ρ c) (KHostA.V1_v5 m ρ c)
      (by rw [KHostA.V1_arg0 m ρ c]; exact hidx)
    rw [KHostA.V1_arg0 m ρ c, KHostA.V1_arg3 m ρ c, KHostA.V1_arg4 m ρ c] at h
    exact (W2_arr m ρ c 5).trans h
  -- the first round of message passing
  have s1 : V7 m ρ c main_v50
      = Cert.RefSpec.agg64 (F := Ideal) (Cert.RefSpec.embedProj (F := Ideal) (m ((c : Thread nD τ).loc main_arg0)) (m ((c : Thread nD τ).loc main_arg3)) (m ((c : Thread nD τ).loc main_arg4)) (m ((c : Thread nD τ).loc main_arg5)))
          (m ((c : Thread nD τ).loc main_arg1)) (m ((c : Thread nD τ).loc main_arg2)) :=
    (KHostA.V7_v50 m ρ c).trans ((congrArg (fun x => Cert.KSpec.agg64 (F := Ideal) x (m ((c : Thread nD τ).loc main_arg1)) (m ((c : Thread nD τ).loc main_arg2))) s0).trans
      (Cert.Bridge.agg64_eq _ _ _))
  -- the second region: bias and positive part
  have s2 : V8 m ρ c main_v52 = Cert.RefSpec.biasRelu (F := Ideal) (V7 m ρ c main_v50) (m ((c : Thread nD τ).loc main_arg6)) :=
    (W8_arr m ρ c 2).trans (Region1.final (V7 m ρ) c (m ((c : Thread nD τ).loc main_arg6)) (KHostA.V7_v51 m ρ c))
  -- the third region: the second projection
  have s3 : V9 m ρ c main_v53 = Cert.RefSpec.proj2 (F := Ideal) (V8 m ρ c main_v52) (m ((c : Thread nD τ).loc main_arg7)) := by
    have h := Region2.final (V8 m ρ) c
    rw [KHostB.V8_arg7 m ρ c] at h
    exact (W9_arr m ρ c 2).trans h
  -- the second round of message passing
  have s4 : V10 m ρ c main_v66
      = Cert.RefSpec.agg16 (F := Ideal) (V9 m ρ c main_v53) (m ((c : Thread nD τ).loc main_arg1)) (m ((c : Thread nD τ).loc main_arg2)) :=
    (KHostB.V10_v66 m ρ c).trans (Cert.Bridge.agg16_eq _ _ _)
  -- the last region: the final bias
  have s5 : W11 m ρ c (Proc.devRef .tc main_v68) = Cert.RefSpec.biasAdd (F := Ideal) (V10 m ρ c main_v66) (m ((c : Thread nD τ).loc main_arg8)) :=
    (W11_arr m ρ c 2).trans (Region3.final (V10 m ρ) c (m ((c : Thread nD τ).loc main_arg8)) (KHostB.V10_v67 m ρ c))
  rw [s5, s4, s3, s2, s1]
  rfl

end Cert.KernelIdeal.KValue

end
-- ==== Proof.RefValue.lean ====
/-
  The reference run's result, the composed term of its 160 host operations, is the composition of the named stages: both
  spell the same operations in the same order, so the equation is the unfolding of the names.
-/
import proofs.«415075_j67637144977437_2_alg».proof.Proof.Gen.ReferenceIdeal.Run
import proofs.«415075_j67637144977437_2_alg».proof.Proof.RefSpec
import Idealize.ShloMosaic.PureOps.Ideal.Laws

set_option maxRecDepth 16384

noncomputable section

namespace Cert.RefValue

open Idealize.ShloMosaic Idealize.ShloMosaic.TcCoe Idealize.SL.Sem Cert.ReferenceIdeal Cert.ReferenceIdeal.Gen

/-- The reference's result on device `c` is the network of the nine argument arrays. -/
theorem res_eq (m : (ℓ : Loc nD τ sig) → Buf (Elt Ideal) ℓ) (c : Dev nD) :
    Cert.ReferenceIdeal.Value.res_main_v119 (F := Ideal) m c
      = Cert.RefSpec.total (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.ReferenceIdeal.Value.res_main_v119 Cert.RefSpec.total Cert.RefSpec.biasAdd Cert.RefSpec.agg16 Cert.RefSpec.proj2
    Cert.RefSpec.biasRelu Cert.RefSpec.agg64 Cert.RefSpec.embedProj Cert.RefSpec.norm Cert.RefSpec.dinv
    Cert.RefSpec.deg Cert.RefSpec.ewAll Cert.RefSpec.dstAll Cert.RefSpec.srcAll
  rfl

end Cert.RefValue

end
-- ==== Proof.PreDecode.lean ====
/-
  What the precondition says of the class numbers: every entry of column 0 lies in [0, 200) and every entry of column 1 in
  [0, 100), read unsigned (a 32-bit word that is non-negative as a signed number and below a small bound has that small value).
-/
import proofs.«415075_j67637144977437_2_alg».proof.Proof.Gen.Pre_finite_inputs
import Idealize.ShloMosaic.Lib.ValueIdx
import Idealize.ShloMosaic.Lib.ValueLayout
import Idealize.ShloMosaic.Lib.ReduceAll
import Idealize.ShloMosaic.Lib.StableHlo.Predicate

set_option maxRecDepth 16384

noncomputable section

namespace Cert.PreDecode

open Idealize.ShloMosaic Idealize.ShloMosaic.ValueIdx Cert.Pre_finite_inputs Cert.Pre_finite_inputs.Gen

/-- A 32-bit word that is non-negative read signed, and read signed lies below a bound under 2³¹, has an unsigned value
    below that bound: a non-negative signed reading is the unsigned one. -/
theorem toNat_lt_of_signed_range (w : BitVec 32) (n : ℕ) (hn : n < 2 ^ 31)
    (h0 : IntOp.cmpi .sge w 0#32 = 1#1) (h1 : IntOp.cmpi .slt w (BitVec.ofNat 32 n) = 1#1) : w.toNat < n := by
  have e0 := IntOp.cmpi_sge.1 h0
  have e1 := IntOp.cmpi_slt.1 h1
  rw [StableHlo.Predicate.toInt_ofNat_small n hn] at e1
  have z : (0#32 : BitVec 32).toInt = 0 := by decide
  rw [z] at e0
  have hw := w.isLt
  rw [BitVec.toInt_eq_toNat_cond] at e0 e1
  split at e0 <;> omega

/-- The scalar shape has one index. -/
instance : Subsingleton S_.Idx := ⟨fun a b => funext fun d => d.elim0⟩

/-- Column `k` of the [100000 × 2] table, cut out as a [100000 × 1] column and flattened to a vector, reads at row `p` the
    table's entry (p, k): row p of a one-column matrix sits at row-major position p, and the cut keeps the row and moves
    the column by the offset. -/
theorem col_apply (a0 : IVec S100000x2 32) (o : ℕ) (k : Fin 2) (hk : k.val = o)
    (hs : S100000x2.Slices ![0, o] S100000x1) (hc : S100000x1.ShapeCasts S100000) (p : Fin 100000) :
    shapeCast S100000 (extractStridedSlice S100000x1 ![0, o] a0 hs) hc (ix1 p) = a0 (ix2 p k) := by
  refine (shapeCast_apply _ hc (ix1 p) (ix2 p (0 : Fin 1)) ?_).trans ?_
  · rw [Shape.rowMajor_val_two, Shape.rowMajor_val_one]
    show p.val * 1 + 0 = p.val
    omega
  · exact slice2_axis1_apply o a0 hs p (0 : Fin 1) k (by show k.val = o + 0; omega)

/-- One column's range test read back. If the conjunction over all rows of "0 ≤ entry, signed" and "entry < n, signed"
    for column `k` is true, then every entry of that column is below `n` read unsigned. -/
theorem col_range (a0 : IVec S100000x2 32) (o : ℕ) (k : Fin 2) (hk : k.val = o) (n : ℕ) (hn : n < 2 ^ 31)
    (hs : S100000x2.Slices ![0, o] S100000x1) (hc : S100000x1.ShapeCasts S100000)
    (hb : S_.BroadcastsInDim S100000 (![] : Fin 0 → Fin S100000.rank)) (hr : S100000.ReducesTo [0] S_) (hu : 0 < S_.numel)
    (e : Host.reduce IntOp.andi
          (andi
            (cmpi .sge (shapeCast S100000 (extractStridedSlice S100000x1 ![0, o] a0 hs) hc)
              (broadcastInDim S100000 ![] hb (constantI S_ 32 0#32)))
            (cmpi .slt (shapeCast S100000 (extractStridedSlice S100000x1 ![0, o] a0 hs) hc)
              (broadcastInDim S100000 ![] hb (constantI S_ 32 (BitVec.ofNat 32 n)))))
          (constantI S_ 1 1#1) hr hu ix0 = 1#1)
    (p : Fin 100000) : (a0 (ix2 p k)).toNat < n := by
  have hp := Host.reduce_andi_all _ _ hr hu ix0 e (ix1 p)
  obtain ⟨hge, hlt⟩ := IntOp.andi_eq_one.1 (show IntOp.andi _ _ = 1#1 from hp)
  have hge' : IntOp.cmpi .sge (shapeCast S100000 (extractStridedSlice S100000x1 ![0, o] a0 hs) hc (ix1 p)) 0#32 = 1#1 := hge
  have hlt' : IntOp.cmpi .slt (shapeCast S100000 (extractStridedSlice S100000x1 ![0, o] a0 hs) hc (ix1 p))
      (BitVec.ofNat 32 n) = 1#1 := hlt
  rw [col_apply a0 o k hk hs hc p] at hge' hlt'
  exact toNat_lt_of_signed_range _ n hn hge' hlt'

/-- Under the precondition every class number lies inside its table. -/
theorem idx_range (a0 : IVec S100000x2 32) (a1 : IVec S2x3200000 32) (a2 : FVec Ideal S3200000 .f32)
    (a3 : FVec Ideal S200x16 .f32) (a4 : FVec Ideal S100x16 .f32) (a5 : FVec Ideal S32x64 .f32) (a6 : FVec Ideal S64 .f32)
    (a7 : FVec Ideal S64x16 .f32) (a8 : FVec Ideal S16 .f32)
    (h : Cert.Pre_finite_inputs.fn (F := Ideal) a0 a1 a2 a3 a4 a5 a6 a7 a8 = fun _ => 1#1) :
    ∀ p : Fin 100000, (a0 (ix2 p (0 : Fin 2))).toNat < 200 ∧ (a0 (ix2 p (1 : Fin 2))).toNat < 100 := by
  -- the precondition at the scalar's one index is a conjunction of nine tests; the last two are the columns' range tests
  have h0 := congrFun h ix0
  unfold fn fn_part1 fn_part2 fn_part3 at h0
  dsimp only at h0
  obtain ⟨h1, hB⟩ := IntOp.andi_eq_one.1 (show IntOp.andi _ _ = 1#1 from h0)
  obtain ⟨_, hA⟩ := IntOp.andi_eq_one.1 (show IntOp.andi _ _ = 1#1 from h1)
  intro p
  exact ⟨col_range a0 0 0 rfl 200 (by norm_num) _ _ _ _ _ hA p, col_range a0 1 1 rfl 100 (by norm_num) _ _ _ _ _ hB p⟩

end Cert.PreDecode

end
-- ==== Proof.lean ====
/-
  A two-layer graph convolution over 100000 nodes: class embeddings looked up and projected, one round of degree-normalised
  message passing, a bias with the positive part, a second projection, a second round of message passing and a last bias. The
  program under test does the dense stages in four tiled kernels (the lookup as a 0/1 row multiplied into the class table) and
  the message passing on the host; the reference does everything on the host. Over the extended reals both end with the same
  function of the nine arguments (`Cert.RefSpec.total`), provided every class number lies inside its table: outside it the
  reference's indexing wraps and clamps while a 0/1 row matches nothing.

  The frames of the two programs with kernels are the generated ones; the reference's frame is its run with the result dropped.
  The ideal pass rewrote nothing, so `preserves` asks nothing. For `algebraic`, the program's run ends with the result buffer
  at the last boundary's contents (`KRun.run`), which the stage lemmas walk back to `total` of the launched arguments
  (`KValue.value`, the range of the class numbers read off the precondition by `PreDecode.idx_range`); the reference's run
  ends at its composed term, which is `total` of its arguments (`RefValue.res_eq`), and the arguments agree.
-/
import proofs.«415075_j67637144977437_2_alg».proof.Defs
import proofs.«415075_j67637144977437_2_alg».proof.Proof.Gen.Kernel
import proofs.«415075_j67637144977437_2_alg».proof.Proof.Gen.Kernel.Skeleton
import proofs.«415075_j67637144977437_2_alg».proof.Proof.Gen.Kernel.Launch
import proofs.«415075_j67637144977437_2_alg».proof.Proof.Gen.Kernel.Points
import proofs.«415075_j67637144977437_2_alg».proof.Proof.Gen.Kernel.Frame
import proofs.«415075_j67637144977437_2_alg».proof.Proof.Gen.KernelIdeal
import proofs.«415075_j67637144977437_2_alg».proof.Proof.Gen.KernelIdeal.Skeleton
import proofs.«415075_j67637144977437_2_alg».proof.Proof.Gen.KernelIdeal.Launch
import proofs.«415075_j67637144977437_2_alg».proof.Proof.Gen.KernelIdeal.Points
import proofs.«415075_j67637144977437_2_alg».proof.Proof.Gen.KernelIdeal.Frame
import proofs.«415075_j67637144977437_2_alg».proof.Proof.Gen.ReferenceIdeal
import proofs.«415075_j67637144977437_2_alg».proof.Proof.Gen.Pre_finite_inputs
import proofs.«415075_j67637144977437_2_alg».proof.Proof.Gen.ReferenceIdeal.Run
import proofs.«415075_j67637144977437_2_alg».proof.Proof.Gen.ReferenceIdeal.Read
import proofs.«415075_j67637144977437_2_alg».proof.Proof.KRun
import proofs.«415075_j67637144977437_2_alg».proof.Proof.KValue
import proofs.«415075_j67637144977437_2_alg».proof.Proof.RefValue
import proofs.«415075_j67637144977437_2_alg».proof.Proof.PreDecode
import Idealize.ShloMosaic.Adequacy
import Idealize.ShloMosaic.Init

noncomputable section

namespace Cert.Proof

open Idealize.ShloMosaic Idealize.ShloMosaic.TcCoe Idealize.SL.Sem

/-- The word-level program runs, without a fault, and leaves its arguments as launched. -/
theorem frame_k : Cert.frame_Kernel := fun m ρ _ => Cert.Kernel.Gen.frame m ρ

/-- The idealized program runs, without a fault, and leaves its arguments as launched. -/
theorem frame_ki : Cert.frame_KernelIdeal := fun m ρ _ => Cert.KernelIdeal.Gen.frame m ρ

/-- The reference runs, without a fault, and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the idealized program. -/
theorem preserves : Cert.preserves_Kernel_KernelIdeal := trivial

/-- From memories that agree on the nine arguments, with every class number inside its table, both programs end with the
    network of those arguments in their result buffers, and their arguments unchanged. -/
theorem algebraic : Cert.algebraic_KernelIdeal_ReferenceIdeal := by
  intro m ρ m' ρ' hpre hagree
  refine ⟨fun c => Cert.RefSpec.total (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩)
      (Cert.KernelIdeal.KRun.run (F := Ideal) m ρ)
    exact Cert.KernelIdeal.KValue.value m ρ c (Cert.PreDecode.idx_range _ _ _ _ _ _ _ _ _ (hpre c))
  · refine (θ_run Cert.ReferenceIdeal.defs _ _).mono (fun r h c => ⟨(h c).1.trans ?_, (h c).2⟩)
      (Cert.ReferenceIdeal.Value.run (F := Ideal) m' ρ')
    rw [Cert.RefValue.res_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
